-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S16x128 .f32 .bf16
  ∧ IdealRules.truncf_extf.Statement Cert.KernelIdeal.S16x128 .f32 .bf16
  ∧ IdealRules.truncf_extf.Statement Cert.KernelIdeal.S16x128 .f32 .bf16
  ∧ IdealRules.truncf_extf.Statement Cert.KernelIdeal.S16x128 .f32 .bf16
  ∧ IdealRules.truncf_extf.Statement Cert.KernelIdeal.S16x128 .f32 .bf16
  ∧ IdealRules.truncf_extf.Statement Cert.KernelIdeal.S16x128 .f32 .bf16
  ∧ IdealRules.truncf_extf.Statement Cert.KernelIdeal.S16x128 .f32 .bf16
  ∧ IdealRules.truncf_extf.Statement Cert.KernelIdeal.S16x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S16x4096 .f32) (main_arg1 : IVec S512x11008 32) (main_arg2 : IVec S32x1376 32) (main_arg3 : FVec F S32x11008 .f32) (main_arg4 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S16x4096 : Shape := ⟨2, ![16, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S1x11008 : Shape := ⟨2, ![1, 11008]⟩
abbrev S16x11008 : Shape := ⟨2, ![16, 11008]⟩
abbrev S128x5504 : Shape := ⟨2, ![128, 5504]⟩
abbrev S8x5504 : Shape := ⟨2, ![8, 5504]⟩
abbrev S1x5504 : Shape := ⟨2, ![1, 5504]⟩
abbrev S16x5504 : Shape := ⟨2, ![16, 5504]⟩
abbrev S1x8x1 : Shape := ⟨3, ![1, 8, 1]⟩
abbrev S16x1x5504 : Shape := ⟨3, ![16, 1, 5504]⟩
abbrev S16x8x5504 : Shape := ⟨3, ![16, 8, 5504]⟩
abbrev S16x128 : Shape := ⟨2, ![16, 128]⟩
abbrev S16 : Shape := ⟨1, ![16]⟩
abbrev S16x1 : Shape := ⟨2, ![16, 1]⟩
abbrev S5504 : Shape := ⟨1, ![5504]⟩

abbrev nBuf : Space → Nat
  | .hbm => 25
  | .vmem => 12
  | .smem => 0
  | _ => 0

abbrev bufTy : (tb : Table) → Fin (tcTables nBuf tb) → BufTy
  | .hbm, ⟨0, _⟩ => ⟨S16x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32x1376x1, .i32⟩
  | .hbm, ⟨10, _⟩ => ⟨S1x1x8, .i32⟩
  | .hbm, ⟨11, _⟩ => ⟨S32x1376x8, .i32⟩
  | .hbm, ⟨12, _⟩ => ⟨S32x1376x8, .i32⟩
  | .hbm, ⟨13, _⟩ => ⟨S32x1376x8, .i32⟩
  | .hbm, ⟨14, _⟩ => ⟨S_, .i32⟩
  | .hbm, ⟨15, _⟩ => ⟨S32x1376x8, .i32⟩
  | .hbm, ⟨16, _⟩ => ⟨S32x1376x8, .i32⟩
  | .hbm, ⟨17, _⟩ => ⟨S32x11008, .i32⟩
  | .hbm, ⟨18, _⟩ => ⟨S_, .i32⟩
  | .hbm, ⟨19, _⟩ => ⟨S32x11008, .i32⟩
  | .hbm, ⟨20, _⟩ => ⟨S32x11008, .i32⟩
  | .hbm, ⟨21, _⟩ => ⟨S32x11008, .f32⟩
  | .hbm, ⟨22, _⟩ => ⟨S32x11008, .f32⟩
  | .hbm, ⟨23, _⟩ => ⟨S1x11008, .f32⟩
  | .hbm, ⟨24, _⟩ => ⟨S16x11008, .f32⟩
  | .local _ .vmem, ⟨0, _⟩ => ⟨S16x4096, .f32⟩
  | .local _ .vmem, ⟨1, _⟩ => ⟨S128x5504, .i32⟩
  | .local _ .vmem, ⟨2, _⟩ => ⟨S128x5504, .i32⟩
  | .local _ .vmem, ⟨3, _⟩ => ⟨S8x5504, .f32⟩
  | .local _ .vmem, ⟨4, _⟩ => ⟨S8x5504, .f32⟩
  | .local _ .vmem, ⟨5, _⟩ => ⟨S8x5504, .f32⟩
  | .local _ .vmem, ⟨6, _⟩ => ⟨S8x5504, .f32⟩
  | .local _ .vmem, ⟨7, _⟩ => ⟨S1x5504, .f32⟩
  | .local _ .vmem, ⟨8, _⟩ => ⟨S1x5504, .f32⟩
  | .local _ .vmem, ⟨9, _⟩ => ⟨S16x5504, .f32⟩
  | .local _ .vmem, ⟨10, _⟩ => ⟨S16x5504, .f32⟩
  | .local _ .vmem, ⟨11, _⟩ => ⟨S16x5504, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_mult2 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c0_i32_2 : BitVec 32 := 0#32
  let v17 : BitVec 32 := Scalar.addi v4 c0_i32_2
  v17
def k0_off1 (i : grid0.Coords) (c0_i32_2 : BitVec 32) : Fin 2 → Nat :=
  let c0_3 : Index := 0#32
  let arg1 : BitVec 32 := BitVec.ofNat 32 (i 1).val
  let c1024_i32 : BitVec 32 := 1024#32
  let v3 : BitVec 32 := Scalar.muli arg1 c1024_i32
  let v4 : BitVec 32 := v3
  let v17 : BitVec 32 := Scalar.addi v4 c0_i32_2
  let v18 : BitVec 32 := v17
  let v19 : Index := Scalar.indexCast v18
  ![0, v19.toNat]
def k0_mult3 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c128_i32 : BitVec 32 := 128#32
  let v52 : BitVec 32 := Scalar.addi v4 c128_i32
  v52
def k0_mult4 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c256_i32 : BitVec 32 := 256#32
  let v87 : BitVec 32 := Scalar.addi v4 c256_i32
  v87
def k0_mult5 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c384_i32 : BitVec 32 := 384#32
  let v122 : BitVec 32 := Scalar.addi v4 c384_i32
  v122
def k0_mult6 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c512_i32 : BitVec 32 := 512#32
  let v157 : BitVec 32 := Scalar.addi v4 c512_i32
  v157
def k0_mult7 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c640_i32 : BitVec 32 := 640#32
  let v192 : BitVec 32 := Scalar.addi v4 c640_i32
  v192
def k0_mult8 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c768_i32 : BitVec 32 := 768#32
  let v227 : BitVec 32 := Scalar.addi v4 c768_i32
  v227
def k0_mult9 (i : grid0.Coords) : BitVec 32 :=
  let arg1 : BitVec 32 := BitVec.ofNat 32 (i 1).val
  let c1024_i32 : BitVec 32 := 1024#32
  let v3 : BitVec 32 := Scalar.muli arg1 c1024_i32
  let v4 : BitVec 32 := v3
  let c896_i32 : BitVec 32 := 896#32
  let v262 : BitVec 32 := Scalar.addi v4 c896_i32
  v262
def k0_cond2 (i : grid0.Coords) : BitVec 1 :=
  let arg1 : BitVec 32 := BitVec.ofNat 32 (i 1).val
  let c3_i32 : BitVec 32 := 3#32
  let v288 : BitVec 1 := Scalar.cmpi .eq arg1 c3_i32
  let v289 : BitVec 32 := Scalar.extui v288
  let c0_i32_97 : BitVec 32 := 0#32
  let v290 : BitVec 1 := Scalar.cmpi .ne v289 c0_i32_97
  v290

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x5504 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x5504 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  shapeCasts_S11008_S1x11008 : S11008.ShapeCasts S1x11008
  inb_S16x5504_S16x5504_0_0 : ∀ a, (![0, 0] : Fin 2 → Nat) a + S16x5504.size a ≤ S16x5504.size a
  h_S16x5504 : 0 < S16x5504.numel
  shapeCasts_S16x5504_S16x5504 : S16x5504.ShapeCasts S16x5504
  iota_S1x8x1_d1_w32 : S1x8x1.Iotas .tc 32 [1]
  inb_S128x5504_S16x5504_0_0 : ∀ a, (![0, 0] : Fin 2 → Nat) a + S16x5504.size a ≤ S128x5504.size a
  shapeCasts_S16x5504_S16x1x5504 : S16x5504.ShapeCasts S16x1x5504
  broadcasts_S16x1x5504_S16x8x5504 : S16x1x5504.Broadcasts S16x8x5504
  broadcasts_S1x8x1_S16x8x5504 : S1x8x1.Broadcasts S16x8x5504
  shapeCasts_S16x8x5504_S128x5504 : S16x8x5504.ShapeCasts S128x5504
  h_S16x128 : 0 < S16x128.numel
  bitsLt_bf16_f32 : FTy.bits .bf16 < FTy.bits .f32
  reduces_S16x128_S16 : S16x128.Reduces [1] S16
  shapeCasts_S16_S16x1 : S16.ShapeCasts S16x1
  inb_S8x5504_S1x5504_0_0 : ∀ a, (![0, 0] : Fin 2 → Nat) a + S1x5504.size a ≤ S8x5504.size a
  h_S1x5504 : 0 < S1x5504.numel
  shapeCasts_S1x5504_S5504 : S1x5504.ShapeCasts S5504
  shapeCasts_S5504_S1x5504 : S5504.ShapeCasts S1x5504
  broadcasts_S1x5504_S16x5504 : S1x5504.Broadcasts S16x5504
  broadcasts_S16x1_S16x5504 : S16x1.Broadcasts S16x5504
  inb_S128x5504_S16x5504_16_0 : ∀ a, (![16, 0] : Fin 2 → Nat) a + S16x5504.size a ≤ S128x5504.size a
  inb_S8x5504_S1x5504_1_0 : ∀ a, (![1, 0] : Fin 2 → Nat) a + S1x5504.size a ≤ S8x5504.size a
  inb_S128x5504_S16x5504_32_0 : ∀ a, (![32, 0] : Fin 2 → Nat) a + S16x5504.size a ≤ S128x5504.size a
  inb_S8x5504_S1x5504_2_0 : ∀ a, (![2, 0] : Fin 2 → Nat) a + S1x5504.size a ≤ S8x5504.size a
  inb_S128x5504_S16x5504_48_0 : ∀ a, (![48, 0] : Fin 2 → Nat) a + S16x5504.size a ≤ S128x5504.size a
  inb_S8x5504_S1x5504_3_0 : ∀ a, (![3, 0] : Fin 2 → Nat) a + S1x5504.size a ≤ S8x5504.size a
  inb_S128x5504_S16x5504_64_0 : ∀ a, (![64, 0] : Fin 2 → Nat) a + S16x5504.size a ≤ S128x5504.size a
  inb_S8x5504_S1x5504_4_0 : ∀ a, (![4, 0] : Fin 2 → Nat) a + S1x5504.size a ≤ S8x5504.size a
  inb_S128x5504_S16x5504_80_0 : ∀ a, (![80, 0] : Fin 2 → Nat) a + S16x5504.size a ≤ S128x5504.size a
  inb_S8x5504_S1x5504_5_0 : ∀ a, (![5, 0] : Fin 2 → Nat) a + S1x5504.size a ≤ S8x5504.size a
  inb_S128x5504_S16x5504_96_0 : ∀ a, (![96, 0] : Fin 2 → Nat) a + S16x5504.size a ≤ S128x5504.size a
  inb_S8x5504_S1x5504_6_0 : ∀ a, (![6, 0] : Fin 2 → Nat) a + S1x5504.size a ≤ S8x5504.size a
  inb_S128x5504_S16x5504_112_0 : ∀ a, (![112, 0] : Fin 2 → Nat) a + S16x5504.size a ≤ S128x5504.size a
  inb_S8x5504_S1x5504_7_0 : ∀ a, (![7, 0] : Fin 2 → Nat) a + S1x5504.size a ≤ S8x5504.size a
  inb_S1x5504_S1x5504_0_0 : ∀ a, (![0, 0] : Fin 2 → Nat) a + S1x5504.size a ≤ S1x5504.size a
  shapeCasts_S1x5504_S1x5504 : S1x5504.ShapeCasts S1x5504
  dot_S16x128_S128x5504_S16x5504_1_0_0_1_n_n_wf : DotDims.WF S16x128 S128x5504 S16x5504 [1] [0] [0] [1] [] []
  hrank0 : 0 < grid0.rank
  k0_mult1_dvd : ∀ i : grid0.Coords, 1024 ∣ (k0_mult1 i).toNat
  k0_mult2_dvd : ∀ i : grid0.Coords, 128 ∣ (k0_mult2 i).toNat
  k0_off1_inb : ∀ i : grid0.Coords, ∀ (r : Fin 8), ∀ a, (k0_off1 i (BitVec.ofNat 32 (128 * r.val))) a + S16x128.size a ≤ S16x4096.size a
  k0_mult3_dvd : ∀ i : grid0.Coords, 128 ∣ (k0_mult3 i).toNat
  k0_mult4_dvd : ∀ i : grid0.Coords, 128 ∣ (k0_mult4 i).toNat
  k0_mult5_dvd : ∀ i : grid0.Coords, 128 ∣ (k0_mult5 i).toNat
  k0_mult6_dvd : ∀ i : grid0.Coords, 128 ∣ (k0_mult6 i).toNat
  k0_mult7_dvd : ∀ i : grid0.Coords, 128 ∣ (k0_mult7 i).toNat
  k0_mult8_dvd : ∀ i : grid0.Coords, 128 ∣ (k0_mult8 i).toNat
  k0_mult9_dvd : ∀ i : grid0.Coords, 128 ∣ (k0_mult9 i).toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5504.size a ≤ S512x11008.size a
  hwx0_1 : ∀ i : grid0.Coords, EltTy.bits .i32 = 32 ∨ (Rect.block (s := S512x11008) S128x5504.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5504.size a ≤ S32x11008.size a
  hwx0_2 : ∀ i : grid0.Coords, EltTy.bits .f32 = 32 ∨ (Rect.block (s := S32x11008) S8x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x5504.size a ≤ S32x11008.size a
  hwx0_3 : ∀ i : grid0.Coords, EltTy.bits .f32 = 32 ∨ (Rect.block (s := S32x11008) S8x5504.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5504.size a ≤ S1x11008.size a
  hwx0_4 : ∀ i : grid0.Coords, EltTy.bits .f32 = 32 ∨ (Rect.block (s := S1x11008) S1x5504.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x5504.size a ≤ S16x11008.size a
  hwx0_5 : ∀ i : grid0.Coords, EltTy.bits .f32 = 32 ∨ (Rect.block (s := S16x11008) S16x5504.size (cc0_transform_5 i) (hinb0_5 i)).WholeWords (EltTy.packing .f32)

variable [Facts₀]

def dot_S16x128_S128x5504_S16x5504_1_0_0_1_n_n : DotDims S16x128 S128x5504 S16x5504 where
  lhsContracting := [1]
  rhsContracting := [0]
  lhsNonContracting := [0]
  rhsNonContracting := [1]
  lhsBatch := []
  rhsBatch := []
  wf := dot_S16x128_S128x5504_S16x5504_1_0_0_1_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x5504.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8x5504.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x5504.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S16x5504.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x4096 : Shape := ⟨2, ![16, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S4096 : Shape := ⟨1, ![4096]⟩
abbrev S4096x1 : Shape := ⟨2, ![4096, 1]⟩
abbrev S16x11008 : Shape := ⟨2, ![16, 11008]⟩
abbrev S1x11008 : Shape := ⟨2, ![1, 11008]⟩

abbrev nBuf : Space → Nat
  | .hbm => 74
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S32x1376x1, .i32⟩
  | .hbm, ⟨19, _⟩ => ⟨S1x1x8, .i32⟩
  | .hbm, ⟨20, _⟩ => ⟨S32x1376x8, .i32⟩
  | .hbm, ⟨21, _⟩ => ⟨S32x1376x8, .i32⟩
  | .hbm, ⟨22, _⟩ => ⟨S32x1376x8, .i32⟩
  | .hbm, ⟨23, _⟩ => ⟨S_, .i32⟩
  | .hbm, ⟨24, _⟩ => ⟨S32x1376x8, .i32⟩
  | .hbm, ⟨25, _⟩ => ⟨S32x1376x8, .i32⟩
  | .hbm, ⟨26, _⟩ => ⟨S32x11008, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S4096x11008, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x11008, .i32⟩
  | .hbm, ⟨64, _⟩ => ⟨S_, .i32⟩
  | .hbm, ⟨65, _⟩ => ⟨S4096x11008, .i32⟩
  | .hbm, ⟨66, _⟩ => ⟨S4096x11008, .i32⟩
  | .hbm, ⟨67, _⟩ => ⟨S4096x11008, .i32⟩
  | .hbm, ⟨68, _⟩ => ⟨S4096x11008, .f32⟩
  | .hbm, ⟨69, _⟩ => ⟨S4096x11008, .f32⟩
  | .hbm, ⟨70, _⟩ => ⟨S16x11008, .f32⟩
  | .hbm, ⟨71, _⟩ => ⟨S1x11008, .f32⟩
  | .hbm, ⟨72, _⟩ => ⟨S16x11008, .f32⟩
  | .hbm, ⟨73, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S4096 : S_.BroadcastsInDim S4096 (![] : Fin 0 → Fin S4096.rank)
  bcast_S4096_S4096x1_0 : S4096.BroadcastsInDim S4096x1 (![0] : Fin 1 → Fin S4096x1.rank)
  bcast_S_S4096x11008 : S_.BroadcastsInDim S4096x11008 (![] : Fin 0 → Fin S4096x11008.rank)
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  gather_S32x11008_S4096x1_S4096x11008_1_0_n_n_0_1_111008_wf : GatherDims.WF S32x11008 S4096x1 S4096x11008 [1] [0] [] [0] [] 1 ![1, 11008]
  dot_S16x4096_S4096x11008_S16x11008_1_0_0_1_n_n_wf : DotDims.WF S16x4096 S4096x11008 S16x11008 [1] [0] [0] [1] [] []

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf
def dot_S16x4096_S4096x11008_S16x11008_1_0_0_1_n_n : DotDims S16x4096 S4096x11008 S16x11008 where
  lhsContracting := [1]
  rhsContracting := [0]
  lhsNonContracting := [0]
  rhsNonContracting := [1]
  lhsBatch := []
  rhsBatch := []
  wf := dot_S16x4096_S4096x11008_S16x11008_1_0_0_1_n_n_wf

class Facts : Prop extends Facts₀ where

variable [Facts]
-- ==== Proof.Spec.lean ====
/-
  THE SPECIFICATION of the int4 group-quantised product, with no program in sight.

  The packed weights `qw : i32[512, 11008]` hold eight 4-bit codes per word along the rows: row `k` of the
  unpacked `[4096, 11008]` code matrix is nibble `k % 8` of word row `k / 8`.  The packed zero points
  `qz : i32[32, 1376]` hold eight codes per word along the columns: column `n` of the unpacked `[32, 11008]`
  matrix is nibble `n % 8` of word column `n / 8`.  A nibble is the word shifted right (arithmetically) by four
  times its number and masked to its low four bits, so it is one of 0, …, 15 whatever the word's sign.
  Rows are quantised in 32 groups of 128: row `k` belongs to group `k / 128`.

  Two forms of the same [16, 11008] result are stated, entry by entry, on the extended reals:
  * `refForm`: the dequantise-then-multiply form, `∑ₖ x[p,k] · (s[g(k),n] · (q[k,n] − (z[g(k),n] + 1))) + b[n]`,
    the code difference taken in the integers before it is read as a real;
  * `kerForm`: the group-wise form, `∑_G ((∑ᵣ x[p,128G+r] · q[128G+r,n]) · s[G,n] − (∑ᵣ x[p,128G+r]) · (s[G,n] · (z[G,n] + 1))) + b[n]`,
    with its partial sums `accUpTo j` over the first `j` groups (what an accumulator holds after `j` groups).
-/
import Idealize.ShloMosaic.PureOps.Ideal
import Idealize.ShloMosaic.Lib.ValueIdx

noncomputable section

namespace Cert.Gptq

open Idealize.ShloMosaic Idealize.ShloMosaic.ValueIdx

abbrev SX : Shape := ⟨2, ![16, 4096]⟩
abbrev SQW : Shape := ⟨2, ![512, 11008]⟩
abbrev SQZ : Shape := ⟨2, ![32, 1376]⟩
abbrev SSC : Shape := ⟨2, ![32, 11008]⟩
abbrev SB : Shape := ⟨1, ![11008]⟩
abbrev SO : Shape := ⟨2, ![16, 11008]⟩

/-- Nibble `j` of a packed word: the word shifted right arithmetically by `4 j` bits, masked to its low four bits. -/
def nib (w : BitVec 32) (j : ℕ) : BitVec 32 := (w.sshiftRight (4 * j)) &&& 15#32

/-- The word row that holds unpacked row `k`. -/
def wrow (k : Fin 4096) : Fin 512 := ⟨k.val / 8, by have := k.isLt; omega⟩
/-- The quantisation group of unpacked row `k`. -/
def grp (k : Fin 4096) : Fin 32 := ⟨k.val / 128, by have := k.isLt; omega⟩
/-- The word column that holds unpacked column `n`. -/
def zcol (n : Fin 11008) : Fin 1376 := ⟨n.val / 8, by have := n.isLt; omega⟩
/-- Row `r` of group `G`. -/
def krow (G : Fin 32) (r : Fin 128) : Fin 4096 := ⟨128 * G.val + r.val, by have := G.isLt; have := r.isLt; omega⟩

/-- The 4-bit weight code at unpacked position `(k, n)`. -/
def wcode (qw : IVec SQW 32) (k : Fin 4096) (n : Fin 11008) : BitVec 32 := nib (qw (ix2 (wrow k) n)) (k.val % 8)
/-- The 4-bit zero-point code of group `G` at column `n`. -/
def zcode (qz : IVec SQZ 32) (G : Fin 32) (n : Fin 11008) : BitVec 32 := nib (qz (ix2 G (zcol n))) (n.val % 8)

variable (x : FVec Ideal SX .f32) (qw : IVec SQW 32) (qz : IVec SQZ 32) (sc : FVec Ideal SSC .f32) (b : FVec Ideal SB .f32)

/-- Dequantise, then multiply: entry `(p, n)`. -/
def refForm (p : Fin 16) (n : Fin 11008) : EReal :=
  (∑ k : Fin 4096, x (ix2 p k) * (sc (ix2 (grp k) n)
      * (((wcode qw k n - (zcode qz (grp k) n + 1#32)).toInt : ℝ) : EReal))) + b (ix1 n)

/-- One group's contribution to entry `(p, n)`: the group's code product scaled, less the group's row sum times the
    scaled zero point. -/
def grpTerm (p : Fin 16) (n : Fin 11008) (G : Fin 32) : EReal :=
  (∑ r : Fin 128, x (ix2 p (krow G r)) * (((wcode qw (krow G r) n).toInt : ℝ) : EReal)) * sc (ix2 G n)
    - (∑ r : Fin 128, x (ix2 p (krow G r))) * (sc (ix2 G n) * (((zcode qz G n + 1#32).toInt : ℝ) : EReal))

/-- The same over the naturals (zero past the last group), for partial sums over a range. -/
def grpTermN (p : Fin 16) (n : Fin 11008) (G : ℕ) : EReal :=
  if h : G < 32 then grpTerm x qw qz sc p n ⟨G, h⟩ else 0

/-- What an accumulator started at zero holds after the first `j` groups. -/
def accUpTo (p : Fin 16) (n : Fin 11008) (j : ℕ) : EReal := ∑ G ∈ Finset.range j, grpTermN x qw qz sc p n G

/-- Group by group, then the bias: entry `(p, n)`. -/
def kerForm (p : Fin 16) (n : Fin 11008) : EReal := accUpTo x qw qz sc p n 32 + b (ix1 n)

theorem accUpTo_zero (p : Fin 16) (n : Fin 11008) : accUpTo x qw qz sc p n 0 = 0 := by
  simp [accUpTo]

theorem accUpTo_succ (p : Fin 16) (n : Fin 11008) (j : ℕ) (hj : j < 32) :
    accUpTo x qw qz sc p n (j + 1) = accUpTo x qw qz sc p n j + grpTerm x qw qz sc p n ⟨j, hj⟩ := by
  unfold accUpTo
  rw [Finset.sum_range_succ]
  simp [grpTermN, hj]

theorem accUpTo_all (p : Fin 16) (n : Fin 11008) :
    accUpTo x qw qz sc p n 32 = ∑ G : Fin 32, grpTerm x qw qz sc p n G := by
  unfold accUpTo
  rw [Finset.sum_fin_eq_sum_range]
  rfl

end Cert.Gptq

end
-- ==== Proof.KerPayload.lean ====
/-
  ONE QUANTISATION GROUP'S UPDATE OF THE ACCUMULATOR, as the kernel body computes it, and its value entry by entry.

  The body, for each of its eight groups, takes sixteen rows of packed words `w : [16, 5504]`, a [16, 128] slice `x` of the
  activations, the group's row of scales `s` and of scaled zero points `z` (each [1, 5504]) and the accumulator
  `acc : [16, 5504]`.  It spreads each word over eight shifts 0, 4, …, 28, masks to four bits and merges the two leading
  axes: row `r` of the [128, 5504] code matrix is nibble `r % 8` of word row `r / 8`.  It multiplies `x` by the codes
  (an exact product at the ideal instance, a change of float format being the identity there), scales the product by `s`,
  subtracts the row sum of `x` times `z`, and adds the accumulator.
-/
import proofs.«411852_j24781961298171_3_alg».proof.Proof.Gen.KernelIdeal.Skeleton
import proofs.«411852_j24781961298171_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-- One group's update of the accumulator (the first group's payload, with the body's closing cast to its own shape). -/
def grpUpd {F : FTy → Type} [FloatOps F] (w : Vec F S16x5504 .i32) (x : Vec F S16x128 .f32) (s z : Vec F S1x5504 .f32)
    (acc : Vec F S16x5504 .f32) : FVec F S16x5504 .f32 :=
  k0_pay6 (k0_pay5 w x s z acc)

/-! ## The packed words spread over the eight shifts -/

/-- A `[16, 5504]` array given a unit middle axis reads, at `(a, u, q)`, the operand at `(a, q)`. -/
theorem addMid_apply {α : Type} (v : S16x5504.Idx → α) (h : S16x5504.ShapeCasts S16x1x5504)
    (a : Fin 16) (u : Fin 1) (q : Fin 5504) :
    shapeCast S16x1x5504 v h (ix3 a u q) = v (ix2 a q) :=
  shapeCast_apply v h _ _ (by
    have hu : u.val = 0 := by omega
    rw [Shape.rowMajor_val_three, Shape.rowMajor_val_two]
    show a.val * 5504 + q.val = (a.val * 1 + u.val) * 5504 + q.val
    rw [hu]; omega)

/-- The unit middle axis spread over eight: at `(a, j, q)` the operand at `(a, 0, q)`. -/
theorem spreadMid_apply {α : Type} (v : S16x1x5504.Idx → α) (h : S16x1x5504.Broadcasts S16x8x5504)
    (a : Fin 16) (j : Fin 8) (q : Fin 5504) :
    broadcastTo S16x8x5504 v h (ix3 a j q) = v (ix3 a (0 : Fin 1) q) := by
  refine broadcastTo_apply v h (ix3 a j q) (ix3 a (0 : Fin 1) q) fun ax => ?_
  match ax with
  | ⟨0, _⟩ => rfl
  | ⟨1, _⟩ => rfl
  | ⟨2, _⟩ => rfl

/-- A `[1, 8, 1]` array spread to `[16, 8, 5504]`: at `(a, j, q)` the operand at `(0, j, 0)`. -/
theorem spreadShift_apply {α : Type} (v : S1x8x1.Idx → α) (h : S1x8x1.Broadcasts S16x8x5504)
    (a : Fin 16) (j : Fin 8) (q : Fin 5504) :
    broadcastTo S16x8x5504 v h (ix3 a j q) = v (ix3 (0 : Fin 1) j (0 : Fin 1)) := by
  refine broadcastTo_apply v h (ix3 a j q) (ix3 (0 : Fin 1) j (0 : Fin 1)) fun ax => ?_
  match ax with
  | ⟨0, _⟩ => rfl
  | ⟨1, _⟩ => rfl
  | ⟨2, _⟩ => rfl

/-- The two leading axes merged: row `r` of the `[128, 5504]` array is `(r / 8, r % 8)` of the `[16, 8, 5504]` one. -/
theorem merge_apply {α : Type} (v : S16x8x5504.Idx → α) (h : S16x8x5504.ShapeCasts S128x5504)
    (r : Fin 128) (q : Fin 5504) :
    shapeCast S128x5504 v h (ix2 r q)
      = v (ix3 (⟨r.val / 8, by have := r.isLt; omega⟩ : Fin 16) (⟨r.val % 8, Nat.mod_lt _ (by norm_num)⟩ : Fin 8) q) :=
  shapeCast_apply v h _ _ (by
    rw [Shape.rowMajor_val_three, Shape.rowMajor_val_two]
    show (r.val / 8 * 8 + r.val % 8) * 5504 + q.val = r.val * 5504 + q.val
    have := Nat.div_add_mod r.val 8
    rw [show r.val / 8 * 8 + r.val % 8 = r.val by omega])

/-! ## The shift amounts and the nibble -/

/-- The shift amount of nibble `j`, the word `j · 4`, is the natural number `4 j`: no wrap below `2 ^ 32`. -/
theorem shiftAmt_toNat (j : Fin 8) : (IntOp.muli (BitVec.ofNat 32 j.val) 4#32).toNat = 4 * j.val := by
  fin_cases j <;> rfl

/-- An arithmetic shift right by the word `j · 4` (an amount below the width) and a mask to four bits is nibble `j`. -/
theorem shr_and_eq_nib (x : BitVec 32) (j : Fin 8) :
    IntOp.andi (IntOp.shrsi .vector x (IntOp.muli (BitVec.ofNat 32 j.val) 4#32)) 15#32 = Cert.Gptq.nib x j.val := by
  have hj := j.isLt
  unfold Cert.Gptq.nib IntOp.andi IntOp.shrsi
  rw [if_pos (by rw [shiftAmt_toNat]; omega), BitVec.sshiftRight_eq', shiftAmt_toNat]

/-- The shift amounts `iota · 4` over `[1, 8, 1]`: at `(0, j, 0)` the word `j · 4`. -/
theorem pay4_apply (j : Fin 8) :
    k0_pay4 (ix3 (0 : Fin 1) j (0 : Fin 1)) = IntOp.muli (BitVec.ofNat 32 j.val) 4#32 := by
  unfold k0_pay4
  show IntOp.muli (iota .tc S1x8x1 32 [1] iota_S1x8x1_d1_w32 (ix3 (0 : Fin 1) j (0 : Fin 1))) 4#32 = _
  rw [iota_single_apply]

/-- The code matrix: row `r`, column `q` is nibble `r % 8` of the word at row `r / 8`, column `q`. -/
theorem codes_apply (w : Vec Ideal S16x5504 .i32) (r : Fin 128) (q : Fin 5504) :
    shapeCast S128x5504
        (andi (shrsi (broadcastTo S16x8x5504 (shapeCast S16x1x5504 w shapeCasts_S16x5504_S16x1x5504)
                        broadcasts_S16x1x5504_S16x8x5504)
                     (broadcastTo S16x8x5504 k0_pay4 broadcasts_S1x8x1_S16x8x5504))
              (broadcast S16x8x5504 15#32))
        shapeCasts_S16x8x5504_S128x5504 (ix2 r q)
      = Cert.Gptq.nib (w (ix2 (⟨r.val / 8, by have := r.isLt; omega⟩ : Fin 16) q)) (r.val % 8) := by
  rw [merge_apply]
  show IntOp.andi (IntOp.shrsi .vector
      (broadcastTo S16x8x5504 (shapeCast S16x1x5504 w shapeCasts_S16x5504_S16x1x5504)
        broadcasts_S16x1x5504_S16x8x5504 (ix3 _ _ q))
      (broadcastTo S16x8x5504 k0_pay4 broadcasts_S1x8x1_S16x8x5504 (ix3 _ _ q))) 15#32 = _
  rw [spreadMid_apply, addMid_apply, spreadShift_apply, pay4_apply, shr_and_eq_nib]

/-! ## The scale and zero-point rows, and the row sums -/

/-- A `[1, 5504]` row flattened, laid as a row again and spread down sixteen rows reads, at `(p, q)`, the row at
    `(0, q)`: the two casts undo each other. -/
theorem rowSpread_apply {α : Type} (s : S1x5504.Idx → α) (p : Fin 16) (q : Fin 5504) :
    broadcastTo S16x5504 (shapeCast S1x5504 (shapeCast S5504 s shapeCasts_S1x5504_S5504) shapeCasts_S5504_S1x5504)
      broadcasts_S1x5504_S16x5504 (ix2 p q) = s (ix2 (0 : Fin 1) q) := by
  rw [shapeCast_shapeCast, broadcastTo_1b_ab_apply]

/-- The lane sum: entry `p` of the sum over axis 1 of a `[16, 128]` array, from a zero initial value, is the sum of
    row `p`. -/
theorem laneSum_apply (x : FVec Ideal S16x128 .f32) (h : S16x128.Reduces [1] S16) (hφ : FKind.Formats .f32)
    (hacc : (0x00000000#32 : BitVec 32) = FKind.add.neutral .f32 hφ) (p : Fin 16) :
    multiReduction (F := Ideal) .add [1] S16 x 0x00000000#32 h hφ hacc (ix1 p) = ∑ r : Fin 128, x (ix2 p r) := by
  refine (Ideal.multiReduction_add_single x 0x00000000#32 h hφ hacc (ix1 p)).trans ?_
  show ∑ r : Fin 128, x (h.lift (ix1 p) r) = _
  refine Finset.sum_congr rfl fun r _ => congrArg x ?_
  funext a
  match a with
  | ⟨0, _⟩ => rfl
  | ⟨1, _⟩ => rfl

/-- A `[16]` column given a unit trailing axis reads, at `(p, u)`, the operand at `p`. -/
theorem addLast_apply {α : Type} (v : S16.Idx → α) (h : S16.ShapeCasts S16x1) (p : Fin 16) (u : Fin 1) :
    shapeCast S16x1 v h (ix2 p u) = v (ix1 p) :=
  shapeCast_apply v h _ _ (by
    have hu : u.val = 0 := by omega
    rw [Shape.rowMajor_val_two, Shape.rowMajor_val_one]
    show p.val = p.val * 1 + u.val
    rw [hu]; omega)

/-- A `[16, 1]` column spread over 5504 columns reads, at `(p, q)`, the operand at `(p, 0)`. -/
theorem colSpread_apply {α : Type} (v : S16x1.Idx → α) (h : S16x1.Broadcasts S16x5504) (p : Fin 16) (q : Fin 5504) :
    broadcastTo S16x5504 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The row sums spread over the columns: at `(p, q)` the sum of row `p` of `x`. -/
theorem rowSums_apply (x : FVec Ideal S16x128 .f32) (p : Fin 16) (q : Fin 5504) :
    broadcastTo S16x5504
        (shapeCast S16x1 (multiReduction (F := Ideal) .add [1] S16 x 0x00000000#32 reduces_S16x128_S16 (.inl rfl) rfl)
          shapeCasts_S16_S16x1)
        broadcasts_S16x1_S16x5504 (ix2 p q)
      = ∑ r : Fin 128, x (ix2 p r) := by
  rw [colSpread_apply, addLast_apply]
  exact laneSum_apply x _ _ _ p

/-! ## The product

  At result index `i` and contraction index `c` the left operand is read at `(i 0, c)` and the right at `(c, i 1)`:
  one statement per operand axis, each at the literal axis. -/

/-- Left operand, axis 0: a free axis, the result's row. -/
theorem lhs_mm_0 (i : S16x5504.Idx) (c : dot_S16x128_S128x5504_S16x5504_1_0_0_1_n_n.contr.Idx) :
    (dot_S16x128_S128x5504_S16x5504_1_0_0_1_n_n.lhsIdx i c 0).val = (i 0).val := by
  unfold DotDims.lhsIdx
  rw [dif_neg (show ¬(0 : Fin S16x128.rank) ∈ dot_S16x128_S128x5504_S16x5504_1_0_0_1_n_n.lhsBatch by decide),
    dif_pos (show (0 : Fin S16x128.rank) ∈ dot_S16x128_S128x5504_S16x5504_1_0_0_1_n_n.lhsNonContracting by decide)]
  rfl

/-- Left operand, axis 1: the contracted axis. -/
theorem lhs_mm_1 (i : S16x5504.Idx) (c : dot_S16x128_S128x5504_S16x5504_1_0_0_1_n_n.contr.Idx) :
    (dot_S16x128_S128x5504_S16x5504_1_0_0_1_n_n.lhsIdx i c 1).val = (c ⟨0, by decide⟩).val :=
  dot_S16x128_S128x5504_S16x5504_1_0_0_1_n_n.lhsIdx_val_of_single rfl i c

/-- Right operand, axis 0: the contracted axis. -/
theorem rhs_mm_0 (i : S16x5504.Idx) (c : dot_S16x128_S128x5504_S16x5504_1_0_0_1_n_n.contr.Idx) :
    (dot_S16x128_S128x5504_S16x5504_1_0_0_1_n_n.rhsIdx i c 0).val = (c ⟨0, by decide⟩).val :=
  dot_S16x128_S128x5504_S16x5504_1_0_0_1_n_n.rhsIdx_val_of_single rfl i c

/-- Right operand, axis 1: a free axis, the result's column. -/
theorem rhs_mm_1 (i : S16x5504.Idx) (c : dot_S16x128_S128x5504_S16x5504_1_0_0_1_n_n.contr.Idx) :
    (dot_S16x128_S128x5504_S16x5504_1_0_0_1_n_n.rhsIdx i c 1).val = (i 1).val := by
  unfold DotDims.rhsIdx
  rw [dif_neg (show ¬(1 : Fin S128x5504.rank) ∈ dot_S16x128_S128x5504_S16x5504_1_0_0_1_n_n.rhsBatch by decide),
    dif_pos (show (1 : Fin S128x5504.rank) ∈ dot_S16x128_S128x5504_S16x5504_1_0_0_1_n_n.rhsNonContracting by decide)]
  rfl

/-- The product into a zero accumulator read at `(p, q)`: the sum over the 128 shared rows of `l (p, k) · r (k, q)`.
    At the ideal values a product into zero is the plain sum over its contraction index, and a one-axis contraction
    index is its one coordinate. -/
theorem mm_apply (l : FVec Ideal S16x128 .bf16) (r : FVec Ideal S128x5504 .bf16) (p : Fin 16) (q : Fin 5504) :
    matmul dot_S16x128_S128x5504_S16x5504_1_0_0_1_n_n none l r (constant (F := Ideal) S16x5504 .f32 0x00000000#32) (ix2 p q)
      = ∑ k : Fin 128, l (ix2 p k) * r (ix2 k q) := by
  simp only [matmul]
  rw [Ideal.matmul_constant_zero_apply,
    ← Equiv.sum_comp (ValueIdx.contrEquiv1 dot_S16x128_S128x5504_S16x5504_1_0_0_1_n_n 128 rfl rfl).symm]
  refine Finset.sum_congr rfl fun k _ => ?_
  have hk := ValueIdx.contrEquiv1_symm_val dot_S16x128_S128x5504_S16x5504_1_0_0_1_n_n 128 rfl rfl k
  have el : dot_S16x128_S128x5504_S16x5504_1_0_0_1_n_n.lhsIdx (ix2 p q)
      ((ValueIdx.contrEquiv1 dot_S16x128_S128x5504_S16x5504_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S16x128_S128x5504_S16x5504_1_0_0_1_n_n.rhsIdx (ix2 p q)
      ((ValueIdx.contrEquiv1 dot_S16x128_S128x5504_S16x5504_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-- Entry `(p, q)` of one group's update: the accumulator's entry plus the code product of row `p` of `x` with column
    `q` of the codes, scaled, less the row sum of `x` times the scaled zero point. -/
theorem grpUpd_apply (w : Vec Ideal S16x5504 .i32) (x : Vec Ideal S16x128 .f32) (s z : Vec Ideal S1x5504 .f32)
    (acc : Vec Ideal S16x5504 .f32) (p : Fin 16) (q : Fin 5504) :
    grpUpd (F := Ideal) w x s z acc (ix2 p q)
      = acc (ix2 p q)
        + ((∑ r : Fin 128, x (ix2 p r)
              * (((Cert.Gptq.nib (w (ix2 (⟨r.val / 8, by have := r.isLt; omega⟩ : Fin 16) q)) (r.val % 8)).toInt : ℝ) : EReal))
            * s (ix2 (0 : Fin 1) q)
          - (∑ r : Fin 128, x (ix2 p r)) * z (ix2 (0 : Fin 1) q)) := by
  unfold grpUpd k0_pay6 k0_pay5
  -- the closing cast is the identity; sum, difference and products are entry by entry; then the four non-pointwise
  -- pieces: the two spread rows, the spread row sums, the product
  rw [shapeCast_self, addf_apply, subf_apply, mulf_apply, mulf_apply, rowSpread_apply, rowSpread_apply, rowSums_apply,
    mm_apply]
  refine congrArg (fun t => acc (ix2 p q) + (t * s (ix2 (0 : Fin 1) q) - _)) ?_
  refine Finset.sum_congr rfl fun r _ => ?_
  -- the change of float format is the identity; a code read as a float is its signed integer as a real
  rw [truncf_apply, sitofp_apply, codes_apply]
  rfl

/-- The closing store's payload: the accumulator plus the bias row spread over the sixteen rows. -/
theorem pay2_apply (v : Vec Ideal S16x5504 .f32) (bb : Vec Ideal S1x5504 .f32) (p : Fin 16) (q : Fin 5504) :
    k0_pay2 (F := Ideal) v bb (ix2 p q) = v (ix2 p q) + bb (ix2 (0 : Fin 1) q) := by
  unfold k0_pay2
  rw [addf_apply, shapeCast_self, broadcastTo_1b_ab_apply]

/-- The reset's payload is zero everywhere. -/
theorem pay3_apply (p : Fin 16) (q : Fin 5504) : k0_pay3 (F := Ideal) (ix2 p q) = (0 : EReal) := by
  unfold k0_pay3
  -- the cast is the identity, the spread scalar reads itself, and the zero word is the extended real zero
  rw [shapeCast_self]
  exact Ideal.ofBits_zero_f32

end Cert.KernelIdeal.Hand

end
-- ==== Proof.KerStep.lean ====
/-
  THE KERNEL BODY'S EIGHT GROUP UPDATES AS ONE CHAIN, and what each control case leaves in the accumulator.

  At a grid point the body holds the whole [16, 4096] activations `x0`, a [128, 5504] block `x1` of packed weights (sixteen
  word rows per group), and [8, 5504] blocks `x2`, `x3` of scales and scaled zero points (one row per group).  Group `j`
  reads word rows `16 j … 16 j + 15` of `x1`, the 128 columns of `x0` starting at the point's first column plus `128 j`,
  and row `j` of `x2` and `x3`, and updates the accumulator (`stepJ`).  `chain8` is the eight updates in order.
  Every store of the accumulator covers it whole, so after the body it holds the last update's value, each update having
  read back the one before: from zero at a first point of a column block, from what the point before left elsewhere.
-/
import proofs.«411852_j24781961298171_3_alg».proof.Proof.Gen.KernelIdeal.Frame
import proofs.«411852_j24781961298171_3_alg».proof.Proof.KerPayload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.Sem

variable {F : FTy → Type} [FloatOps F]

/-- The zero offsets of a whole-buffer access, spelt as a function. -/
theorem hz2 : (![0, 0] : Fin 2 → ℕ) = fun _ => 0 := by
  funext a; fin_cases a <;> rfl

/-- A load of the whole buffer after a list of stores whose LAST covers it whole reads that store's payload. -/
theorem readCov_cons_whole {sg : RefSig} {κ : Kind} {sp : Space} {S : Shape} {e : EltTy} {Val : EltTy → Type}
    [∀ e, Nonempty (Val e)] (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-- Group `j`'s sixteen word rows lie inside the [128, 5504] block. -/
theorem inbW (j : Fin 8) : ∀ a, (![16 * j.val, 0] : Fin 2 → ℕ) a + S16x5504.size a ≤ S128x5504.size a := by
  intro a; have := j.isLt
  fin_cases a
  · show 16 * j.val + 16 ≤ 128; omega
  · show 0 + 5504 ≤ 5504; omega

/-- Group `j`'s row lies inside the [8, 5504] block. -/
theorem inbS (j : Fin 8) : ∀ a, (![j.val, 0] : Fin 2 → ℕ) a + S1x5504.size a ≤ S8x5504.size a := by
  intro a; have := j.isLt
  fin_cases a
  · show j.val + 1 ≤ 8; omega
  · show 0 + 5504 ≤ 5504; omega

section chain
variable (i : grid0.Coords) (x0 : Vec F S16x4096 .f32) (x1 : Vec F S128x5504 .i32) (x2 x3 : Vec F S8x5504 .f32)

/-- Group `j`'s update of the accumulator at the point with coordinates `i`. -/
def stepJ (j : Fin 8) (acc : Vec F S16x5504 .f32) : FVec F S16x5504 .f32 :=
  grpUpd
    (View.ld x1 (Rect.unit (s := S128x5504) ![16 * j.val, 0] S16x5504.size (inbW j)))
    (View.ld x0 (Rect.unit (s := S16x4096) (k0_off1 i (BitVec.ofNat 32 (128 * j.val))) S16x128.size (k0_off1_inb i j)))
    (View.ld x2 (Rect.unit (s := S8x5504) ![j.val, 0] S1x5504.size (inbS j)))
    (View.ld x3 (Rect.unit (s := S8x5504) ![j.val, 0] S1x5504.size (inbS j)))
    acc

/-- The eight updates in order. -/
def chain8 (acc : Vec F S16x5504 .f32) : FVec F S16x5504 .f32 :=
  stepJ i x0 x1 x2 x3 7 (stepJ i x0 x1 x2 x3 6 (stepJ i x0 x1 x2 x3 5 (stepJ i x0 x1 x2 x3 4
    (stepJ i x0 x1 x2 x3 3 (stepJ i x0 x1 x2 x3 2 (stepJ i x0 x1 x2 x3 1 (stepJ i x0 x1 x2 x3 0 acc)))))))

end chain

/-! ## The middle case: eight updates of what the point before left -/

section caseB
variable (c : Dev nD) (i : grid0.Coords) (arg2 : Memref sig .tc .vmem S16x4096 .f32) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S16x5504 .f32) (harg7 : arg7.IsWhole) (arg8 : Memref sig .tc .vmem S16x5504 .f32) (harg8 : arg8.IsWhole)
  (x0 : Vec F S16x4096 .f32) (x1 : Vec F S128x5504 .i32) (x2 : Vec F S8x5504 .f32) (x3 : Vec F S8x5504 .f32) (xs0 : Vec F S16x5504 .f32)

theorem B_v67 : kernelRun0_B.sl.v67 c i arg2 harg2 arg3 harg3 arg4 harg4 arg5 harg5 arg8 harg8 x0 x1 x2 x3 xs0 = (stepJ i x0 x1 x2 x3 0 xs0) := by
  unfold kernelRun0_B.sl.v67 kernelRun0_B.sl.HS0_1
  rw [View.readCov_unit_zero _ hz2]
  unfold kernelRun0_B.sl.r
  simp only [View.readAt_eq_ld, Memref.IsWhole.read_unread, View.ld_unit_zero (S := S16x5504) hz2]
  rfl

theorem B_v102 : kernelRun0_B.sl.v102 c i arg2 harg2 arg3 harg3 arg4 harg4 arg5 harg5 arg8 harg8 x0 x1 x2 x3 xs0 = (stepJ i x0 x1 x2 x3 1 (stepJ i x0 x1 x2 x3 0 xs0)) := by
  unfold kernelRun0_B.sl.v102 kernelRun0_B.sl.HS0_2
  rw [readCov_cons_whole _ hz2]
  rw [B_v67]
  simp only [View.readAt_eq_ld, Memref.IsWhole.read_unread, View.ld_unit_zero (S := S16x5504) hz2]
  rfl

theorem B_v137 : kernelRun0_B.sl.v137 c i arg2 harg2 arg3 harg3 arg4 harg4 arg5 harg5 arg8 harg8 x0 x1 x2 x3 xs0 = (stepJ i x0 x1 x2 x3 2 (stepJ i x0 x1 x2 x3 1 (stepJ i x0 x1 x2 x3 0 xs0))) := by
  unfold kernelRun0_B.sl.v137 kernelRun0_B.sl.HS0_3
  rw [readCov_cons_whole _ hz2]
  unfold kernelRun0_B.sl.r_1
  rw [B_v102]
  simp only [View.readAt_eq_ld, Memref.IsWhole.read_unread, View.ld_unit_zero (S := S16x5504) hz2]
  rfl

theorem B_v172 : kernelRun0_B.sl.v172 c i arg2 harg2 arg3 harg3 arg4 harg4 arg5 harg5 arg8 harg8 x0 x1 x2 x3 xs0 = (stepJ i x0 x1 x2 x3 3 (stepJ i x0 x1 x2 x3 2 (stepJ i x0 x1 x2 x3 1 (stepJ i x0 x1 x2 x3 0 xs0)))) := by
  unfold kernelRun0_B.sl.v172 kernelRun0_B.sl.HS0_4
  rw [readCov_cons_whole _ hz2]
  unfold kernelRun0_B.sl.r_2
  rw [B_v137]
  simp only [View.readAt_eq_ld, Memref.IsWhole.read_unread, View.ld_unit_zero (S := S16x5504) hz2]
  rfl

theorem B_v207 : kernelRun0_B.sl.v207 c i arg2 harg2 arg3 harg3 arg4 harg4 arg5 harg5 arg8 harg8 x0 x1 x2 x3 xs0 = (stepJ i x0 x1 x2 x3 4 (stepJ i x0 x1 x2 x3 3 (stepJ i x0 x1 x2 x3 2 (stepJ i x0 x1 x2 x3 1 (stepJ i x0 x1 x2 x3 0 xs0))))) := by
  unfold kernelRun0_B.sl.v207 kernelRun0_B.sl.HS0_5
  rw [readCov_cons_whole _ hz2]
  unfold kernelRun0_B.sl.r_3 kernelRun0_B.sl.r_4 kernelRun0_B.sl.r_5
  rw [B_v172]
  simp only [View.readAt_eq_ld, Memref.IsWhole.read_unread, View.ld_unit_zero (S := S16x5504) hz2]
  rfl

theorem B_v242 : kernelRun0_B.sl.v242 c i arg2 harg2 arg3 harg3 arg4 harg4 arg5 harg5 arg8 harg8 x0 x1 x2 x3 xs0 = (stepJ i x0 x1 x2 x3 5 (stepJ i x0 x1 x2 x3 4 (stepJ i x0 x1 x2 x3 3 (stepJ i x0 x1 x2 x3 2 (stepJ i x0 x1 x2 x3 1 (stepJ i x0 x1 x2 x3 0 xs0)))))) := by
  unfold kernelRun0_B.sl.v242 kernelRun0_B.sl.HS0_6
  rw [readCov_cons_whole _ hz2]
  unfold kernelRun0_B.sl.r_6 kernelRun0_B.sl.r_7 kernelRun0_B.sl.r_8
  rw [B_v207]
  simp only [View.readAt_eq_ld, Memref.IsWhole.read_unread, View.ld_unit_zero (S := S16x5504) hz2]
  rfl

theorem B_v277 : kernelRun0_B.sl.v277 c i arg2 harg2 arg3 harg3 arg4 harg4 arg5 harg5 arg8 harg8 x0 x1 x2 x3 xs0 = (stepJ i x0 x1 x2 x3 6 (stepJ i x0 x1 x2 x3 5 (stepJ i x0 x1 x2 x3 4 (stepJ i x0 x1 x2 x3 3 (stepJ i x0 x1 x2 x3 2 (stepJ i x0 x1 x2 x3 1 (stepJ i x0 x1 x2 x3 0 xs0))))))) := by
  unfold kernelRun0_B.sl.v277 kernelRun0_B.sl.HS0_7
  rw [readCov_cons_whole _ hz2]
  unfold kernelRun0_B.sl.r_9 kernelRun0_B.sl.r_10 kernelRun0_B.sl.r_11 kernelRun0_B.sl.r_12
  rw [B_v242]
  simp only [View.readAt_eq_ld, Memref.IsWhole.read_unread, View.ld_unit_zero (S := S16x5504) hz2]
  rfl

theorem B_last : k0_pay1 (kernelRun0_B.sl.r_13 c i arg2 harg2 arg3 harg3 arg4 harg4 arg5 harg5 arg8 harg8 x0 x1 x2 x3 xs0) = chain8 i x0 x1 x2 x3 xs0 := by
  unfold kernelRun0_B.sl.r_13
  rw [B_v277]
  simp only [View.readAt_eq_ld, Memref.IsWhole.read_unread]
  rfl

end caseB

/-! ## The last case: the same eight updates, then the result block -/

section caseC
variable (c : Dev nD) (i : grid0.Coords) (arg2 : Memref sig .tc .vmem S16x4096 .f32) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S16x5504 .f32) (harg7 : arg7.IsWhole) (arg8 : Memref sig .tc .vmem S16x5504 .f32) (harg8 : arg8.IsWhole)
  (x0 : Vec F S16x4096 .f32) (x1 : Vec F S128x5504 .i32) (x2 : Vec F S8x5504 .f32) (x3 : Vec F S8x5504 .f32) (xs0 : Vec F S16x5504 .f32)

theorem C_v67 : kernelRun0_C.sl.v67 c i arg2 harg2 arg3 harg3 arg4 harg4 arg5 harg5 arg8 harg8 x0 x1 x2 x3 xs0 = (stepJ i x0 x1 x2 x3 0 xs0) := by
  unfold kernelRun0_C.sl.v67 kernelRun0_C.sl.HS0_1
  rw [View.readCov_unit_zero _ hz2]
  unfold kernelRun0_C.sl.r
  simp only [View.readAt_eq_ld, Memref.IsWhole.read_unread, View.ld_unit_zero (S := S16x5504) hz2]
  rfl

theorem C_v102 : kernelRun0_C.sl.v102 c i arg2 harg2 arg3 harg3 arg4 harg4 arg5 harg5 arg8 harg8 x0 x1 x2 x3 xs0 = (stepJ i x0 x1 x2 x3 1 (stepJ i x0 x1 x2 x3 0 xs0)) := by
  unfold kernelRun0_C.sl.v102 kernelRun0_C.sl.HS0_2
  rw [readCov_cons_whole _ hz2]
  rw [C_v67]
  simp only [View.readAt_eq_ld, Memref.IsWhole.read_unread, View.ld_unit_zero (S := S16x5504) hz2]
  rfl

theorem C_v137 : kernelRun0_C.sl.v137 c i arg2 harg2 arg3 harg3 arg4 harg4 arg5 harg5 arg8 harg8 x0 x1 x2 x3 xs0 = (stepJ i x0 x1 x2 x3 2 (stepJ i x0 x1 x2 x3 1 (stepJ i x0 x1 x2 x3 0 xs0))) := by
  unfold kernelRun0_C.sl.v137 kernelRun0_C.sl.HS0_3
  rw [readCov_cons_whole _ hz2]
  unfold kernelRun0_C.sl.r_1
  rw [C_v102]
  simp only [View.readAt_eq_ld, Memref.IsWhole.read_unread, View.ld_unit_zero (S := S16x5504) hz2]
  rfl

theorem C_v172 : kernelRun0_C.sl.v172 c i arg2 harg2 arg3 harg3 arg4 harg4 arg5 harg5 arg8 harg8 x0 x1 x2 x3 xs0 = (stepJ i x0 x1 x2 x3 3 (stepJ i x0 x1 x2 x3 2 (stepJ i x0 x1 x2 x3 1 (stepJ i x0 x1 x2 x3 0 xs0)))) := by
  unfold kernelRun0_C.sl.v172 kernelRun0_C.sl.HS0_4
  rw [readCov_cons_whole _ hz2]
  unfold kernelRun0_C.sl.r_2
  rw [C_v137]
  simp only [View.readAt_eq_ld, Memref.IsWhole.read_unread, View.ld_unit_zero (S := S16x5504) hz2]
  rfl

theorem C_v207 : kernelRun0_C.sl.v207 c i arg2 harg2 arg3 harg3 arg4 harg4 arg5 harg5 arg8 harg8 x0 x1 x2 x3 xs0 = (stepJ i x0 x1 x2 x3 4 (stepJ i x0 x1 x2 x3 3 (stepJ i x0 x1 x2 x3 2 (stepJ i x0 x1 x2 x3 1 (stepJ i x0 x1 x2 x3 0 xs0))))) := by
  unfold kernelRun0_C.sl.v207 kernelRun0_C.sl.HS0_5
  rw [readCov_cons_whole _ hz2]
  unfold kernelRun0_C.sl.r_3 kernelRun0_C.sl.r_4 kernelRun0_C.sl.r_5
  rw [C_v172]
  simp only [View.readAt_eq_ld, Memref.IsWhole.read_unread, View.ld_unit_zero (S := S16x5504) hz2]
  rfl

theorem C_v242 : kernelRun0_C.sl.v242 c i arg2 harg2 arg3 harg3 arg4 harg4 arg5 harg5 arg8 harg8 x0 x1 x2 x3 xs0 = (stepJ i x0 x1 x2 x3 5 (stepJ i x0 x1 x2 x3 4 (stepJ i x0 x1 x2 x3 3 (stepJ i x0 x1 x2 x3 2 (stepJ i x0 x1 x2 x3 1 (stepJ i x0 x1 x2 x3 0 xs0)))))) := by
  unfold kernelRun0_C.sl.v242 kernelRun0_C.sl.HS0_6
  rw [readCov_cons_whole _ hz2]
  unfold kernelRun0_C.sl.r_6 kernelRun0_C.sl.r_7 kernelRun0_C.sl.r_8
  rw [C_v207]
  simp only [View.readAt_eq_ld, Memref.IsWhole.read_unread, View.ld_unit_zero (S := S16x5504) hz2]
  rfl

theorem C_v277 : kernelRun0_C.sl.v277 c i arg2 harg2 arg3 harg3 arg4 harg4 arg5 harg5 arg8 harg8 x0 x1 x2 x3 xs0 = (stepJ i x0 x1 x2 x3 6 (stepJ i x0 x1 x2 x3 5 (stepJ i x0 x1 x2 x3 4 (stepJ i x0 x1 x2 x3 3 (stepJ i x0 x1 x2 x3 2 (stepJ i x0 x1 x2 x3 1 (stepJ i x0 x1 x2 x3 0 xs0))))))) := by
  unfold kernelRun0_C.sl.v277 kernelRun0_C.sl.HS0_7
  rw [readCov_cons_whole _ hz2]
  unfold kernelRun0_C.sl.r_9 kernelRun0_C.sl.r_10 kernelRun0_C.sl.r_11 kernelRun0_C.sl.r_12
  rw [C_v242]
  simp only [View.readAt_eq_ld, Memref.IsWhole.read_unread, View.ld_unit_zero (S := S16x5504) hz2]
  rfl

theorem C_last : k0_pay1 (kernelRun0_C.sl.r_13 c i arg2 harg2 arg3 harg3 arg4 harg4 arg5 harg5 arg8 harg8 x0 x1 x2 x3 xs0) = chain8 i x0 x1 x2 x3 xs0 := by
  unfold kernelRun0_C.sl.r_13
  rw [C_v277]
  simp only [View.readAt_eq_ld, Memref.IsWhole.read_unread]
  rfl

end caseC

/-! ## The first case: the accumulator reset to zero, then eight updates -/

section caseA
variable (c : Dev nD) (i : grid0.Coords) (arg2 : Memref sig .tc .vmem S16x4096 .f32) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S16x5504 .f32) (harg7 : arg7.IsWhole) (arg8 : Memref sig .tc .vmem S16x5504 .f32) (harg8 : arg8.IsWhole)
  (x0 : Vec F S16x4096 .f32) (x1 : Vec F S128x5504 .i32) (x2 : Vec F S8x5504 .f32) (x3 : Vec F S8x5504 .f32)

theorem A_v32 : kernelRun0_A.sl.v32 (F := F) c arg8 = k0_pay3 := by
  unfold kernelRun0_A.sl.v32 kernelRun0_A.sl.HS0_1
  rw [View.readCov_unit_zero _ hz2]

theorem A_v67 : kernelRun0_A.sl.v67 c i arg2 harg2 arg3 harg3 arg4 harg4 arg5 harg5 arg8 x0 x1 x2 x3 = (stepJ i x0 x1 x2 x3 0 k0_pay3) := by
  unfold kernelRun0_A.sl.v67 kernelRun0_A.sl.HS0_2
  rw [readCov_cons_whole _ hz2]
  unfold kernelRun0_A.sl.r
  rw [A_v32]
  simp only [View.readAt_eq_ld, Memref.IsWhole.read_unread, View.ld_unit_zero (S := S16x5504) hz2]
  rfl

theorem A_v102 : kernelRun0_A.sl.v102 c i arg2 harg2 arg3 harg3 arg4 harg4 arg5 harg5 arg8 x0 x1 x2 x3 = (stepJ i x0 x1 x2 x3 1 (stepJ i x0 x1 x2 x3 0 k0_pay3)) := by
  unfold kernelRun0_A.sl.v102 kernelRun0_A.sl.HS0_3
  rw [readCov_cons_whole _ hz2]
  rw [A_v67]
  simp only [View.readAt_eq_ld, Memref.IsWhole.read_unread, View.ld_unit_zero (S := S16x5504) hz2]
  rfl

theorem A_v137 : kernelRun0_A.sl.v137 c i arg2 harg2 arg3 harg3 arg4 harg4 arg5 harg5 arg8 x0 x1 x2 x3 = (stepJ i x0 x1 x2 x3 2 (stepJ i x0 x1 x2 x3 1 (stepJ i x0 x1 x2 x3 0 k0_pay3))) := by
  unfold kernelRun0_A.sl.v137 kernelRun0_A.sl.HS0_4
  rw [readCov_cons_whole _ hz2]
  unfold kernelRun0_A.sl.r_1
  rw [A_v102]
  simp only [View.readAt_eq_ld, Memref.IsWhole.read_unread, View.ld_unit_zero (S := S16x5504) hz2]
  rfl

theorem A_v172 : kernelRun0_A.sl.v172 c i arg2 harg2 arg3 harg3 arg4 harg4 arg5 harg5 arg8 x0 x1 x2 x3 = (stepJ i x0 x1 x2 x3 3 (stepJ i x0 x1 x2 x3 2 (stepJ i x0 x1 x2 x3 1 (stepJ i x0 x1 x2 x3 0 k0_pay3)))) := by
  unfold kernelRun0_A.sl.v172 kernelRun0_A.sl.HS0_5
  rw [readCov_cons_whole _ hz2]
  unfold kernelRun0_A.sl.r_2
  rw [A_v137]
  simp only [View.readAt_eq_ld, Memref.IsWhole.read_unread, View.ld_unit_zero (S := S16x5504) hz2]
  rfl

theorem A_v207 : kernelRun0_A.sl.v207 c i arg2 harg2 arg3 harg3 arg4 harg4 arg5 harg5 arg8 x0 x1 x2 x3 = (stepJ i x0 x1 x2 x3 4 (stepJ i x0 x1 x2 x3 3 (stepJ i x0 x1 x2 x3 2 (stepJ i x0 x1 x2 x3 1 (stepJ i x0 x1 x2 x3 0 k0_pay3))))) := by
  unfold kernelRun0_A.sl.v207 kernelRun0_A.sl.HS0_6
  rw [readCov_cons_whole _ hz2]
  unfold kernelRun0_A.sl.r_3 kernelRun0_A.sl.r_4 kernelRun0_A.sl.r_5
  rw [A_v172]
  simp only [View.readAt_eq_ld, Memref.IsWhole.read_unread, View.ld_unit_zero (S := S16x5504) hz2]
  rfl

theorem A_v242 : kernelRun0_A.sl.v242 c i arg2 harg2 arg3 harg3 arg4 harg4 arg5 harg5 arg8 x0 x1 x2 x3 = (stepJ i x0 x1 x2 x3 5 (stepJ i x0 x1 x2 x3 4 (stepJ i x0 x1 x2 x3 3 (stepJ i x0 x1 x2 x3 2 (stepJ i x0 x1 x2 x3 1 (stepJ i x0 x1 x2 x3 0 k0_pay3)))))) := by
  unfold kernelRun0_A.sl.v242 kernelRun0_A.sl.HS0_7
  rw [readCov_cons_whole _ hz2]
  unfold kernelRun0_A.sl.r_6 kernelRun0_A.sl.r_7 kernelRun0_A.sl.r_8
  rw [A_v207]
  simp only [View.readAt_eq_ld, Memref.IsWhole.read_unread, View.ld_unit_zero (S := S16x5504) hz2]
  rfl

theorem A_v277 : kernelRun0_A.sl.v277 c i arg2 harg2 arg3 harg3 arg4 harg4 arg5 harg5 arg8 x0 x1 x2 x3 = (stepJ i x0 x1 x2 x3 6 (stepJ i x0 x1 x2 x3 5 (stepJ i x0 x1 x2 x3 4 (stepJ i x0 x1 x2 x3 3 (stepJ i x0 x1 x2 x3 2 (stepJ i x0 x1 x2 x3 1 (stepJ i x0 x1 x2 x3 0 k0_pay3))))))) := by
  unfold kernelRun0_A.sl.v277 kernelRun0_A.sl.HS0_8
  rw [readCov_cons_whole _ hz2]
  unfold kernelRun0_A.sl.r_9 kernelRun0_A.sl.r_10 kernelRun0_A.sl.r_11 kernelRun0_A.sl.r_12
  rw [A_v242]
  simp only [View.readAt_eq_ld, Memref.IsWhole.read_unread, View.ld_unit_zero (S := S16x5504) hz2]
  rfl

theorem A_last : k0_pay1 (kernelRun0_A.sl.r_13 c i arg2 harg2 arg3 harg3 arg4 harg4 arg5 harg5 arg8 x0 x1 x2 x3) = chain8 i x0 x1 x2 x3 k0_pay3 := by
  unfold kernelRun0_A.sl.r_13
  rw [A_v277]
  simp only [View.readAt_eq_ld, Memref.IsWhole.read_unread]
  rfl

end caseA

/-! ## What each case leaves -/

section leaves
variable (c : Dev nD) (i : grid0.Coords) (arg2 : Memref sig .tc .vmem S16x4096 .f32) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S16x5504 .f32) (harg7 : arg7.IsWhole) (arg8 : Memref sig .tc .vmem S16x5504 .f32) (harg8 : arg8.IsWhole)
  (x0 : Vec F S16x4096 .f32) (x1 : Vec F S128x5504 .i32) (x2 : Vec F S8x5504 .f32) (x3 : Vec F S8x5504 .f32) (x4 : Vec F S1x5504 .f32) (xs0 : Vec F S16x5504 .f32)

/-- At a first point of a column block the accumulator ends at the eight updates of zero. -/
theorem sout0_A_0_eq (hc0 : cond0_0 i) (hc1 : ¬cond0_1 i) :
    sout0_A_0 c i arg2 harg2 arg3 harg3 arg4 harg4 arg5 harg5 arg6 harg6 arg7 harg7 arg8 harg8 hc0 hc1 x0 x1 x2 x3 x4 = chain8 i x0 x1 x2 x3 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  exact (View.canon_cons_unit_zero (S := S16x5504) hz2 _ _ _).trans (A_last c i arg2 harg2 arg3 harg3 arg4 harg4 arg5 harg5 arg8 x0 x1 x2 x3)

/-- At a middle point it ends at the eight updates of what the point before left. -/
theorem sout0_B_0_eq (hc0 : ¬cond0_0 i) (hc1 : ¬cond0_1 i) :
    sout0_B_0 c i arg2 harg2 arg3 harg3 arg4 harg4 arg5 harg5 arg6 harg6 arg7 harg7 arg8 harg8 hc0 hc1 x0 x1 x2 x3 x4 xs0 = chain8 i x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  exact (View.canon_cons_unit_zero (S := S16x5504) hz2 _ _ _).trans (B_last c i arg2 harg2 arg3 harg3 arg4 harg4 arg5 harg5 arg8 harg8 x0 x1 x2 x3 xs0)

/-- At a last point likewise, -/
theorem sout0_C_0_eq (hc0 : ¬cond0_0 i) (hc1 : cond0_1 i) :
    sout0_C_0 c i arg2 harg2 arg3 harg3 arg4 harg4 arg5 harg5 arg6 harg6 arg7 harg7 arg8 harg8 hc0 hc1 x0 x1 x2 x3 x4 xs0 = chain8 i x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  unfold kernelRun0_C.sl.HS0_8
  exact (View.canon_cons_unit_zero (S := S16x5504) hz2 _ _ _).trans (C_last c i arg2 harg2 arg3 harg3 arg4 harg4 arg5 harg5 arg8 harg8 x0 x1 x2 x3 xs0)

/-- and the result block is that accumulator plus the bias row. -/
theorem out0_C_5_eq (hc0 : ¬cond0_0 i) (hc1 : cond0_1 i) :
    out0_C_5 c i arg2 harg2 arg3 harg3 arg4 harg4 arg5 harg5 arg6 harg6 arg7 harg7 arg8 harg8 hc0 hc1 x0 x1 x2 x3 x4 xs0 = k0_pay2 (chain8 i x0 x1 x2 x3 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  refine (View.canon_unit_zero (S := S16x5504) hz2 _ _).trans ?_
  have hv : kernelRun0_C.sl.v291 c i arg2 harg2 arg3 harg3 arg4 harg4 arg5 harg5 arg8 harg8 x0 x1 x2 x3 xs0 = chain8 i x0 x1 x2 x3 xs0 := by
    unfold kernelRun0_C.sl.v291 kernelRun0_C.sl.HS0_8
    exact (readCov_cons_whole (S := S16x5504) _ hz2 _ _ _).trans (C_last c i arg2 harg2 arg3 harg3 arg4 harg4 arg5 harg5 arg8 harg8 x0 x1 x2 x3 xs0)
  rw [hv]
  simp only [View.readAt_eq_ld, Memref.IsWhole.read_unread]
  exact congrArg (k0_pay2 (chain8 i x0 x1 x2 x3 xs0)) (View.ld_unit_zero (S := S1x5504) hz2 _ x4)

end leaves

end Cert.KernelIdeal.Hand

end
-- ==== Proof.KerVal.lean ====
/-
  THE CHAIN OF GROUP UPDATES READ AT AN ENTRY (at the ideal instance): after the eight updates at a grid point with row
  block `kb`, entry `(p, q)` of the accumulator has grown by the eight group terms of rows `1024 kb + 128 j …`, `j < 8`.
-/
import proofs.«411852_j24781961298171_3_alg».proof.Proof.KerStep
import proofs.«411852_j24781961298171_3_alg».proof.Proof.Spec

set_option maxRecDepth 16384

noncomputable section

namespace Cert.KernelIdeal.Hand

open Cert.KernelIdeal Cert.KernelIdeal.Gen Idealize.ShloMosaic Idealize.ShloMosaic.TcCoe Idealize.ShloMosaic.ValueIdx

/-- A load through a unit-stride rectangle of a rank-2 array, at `(a, b)`: the array at the offsets plus `(a, b)`. -/
theorem ld_unit_ix2 {Val : EltTy → Type} {e : EltTy} {n0 n1 m0 m1 : ℕ} (X : (⟨2, ![n0, n1]⟩ : Shape).Idx → Val e)
    (off : Fin 2 → ℕ) (inb : ∀ a, off a + (![m0, m1] : Fin 2 → ℕ) a ≤ (⟨2, ![n0, n1]⟩ : Shape).size a)
    (a : Fin m0) (b : Fin m1) :
    View.ld X (Rect.unit (s := ⟨2, ![n0, n1]⟩) off ![m0, m1] inb) (ix2 a b)
      = X (ix2 (⟨off 0 + a.val, by have h : off 0 + m0 ≤ n0 := inb 0; have := a.isLt; omega⟩ : Fin n0)
          (⟨off 1 + b.val, by have h : off 1 + m1 ≤ n1 := inb 1; have := b.isLt; omega⟩ : Fin n1)) := by
  show X ((Rect.unit (s := ⟨2, ![n0, n1]⟩) off ![m0, m1] inb).idx (ix2 a b)) = _
  congr 1; funext d; apply Fin.ext
  match d with
  | ⟨0, _⟩ => show off 0 + 1 * a.val = off 0 + a.val; omega
  | ⟨1, _⟩ => show off 1 + 1 * b.val = off 1 + b.val; omega

/-- Group `j`'s activation slice starts at column `1024 kb + 128 j`, `kb` the point's row block. -/
theorem off1_val : ∀ (i : grid0.Coords) (j : Fin 8),
    k0_off1 i (BitVec.ofNat 32 (128 * j.val)) = ![0, 1024 * (i 1).val + 128 * j.val] := by
  decide +kernel

/-- The point's row block is one of four. -/
theorem kb_lt (i : grid0.Coords) : (i 1).val < 4 := (i 1).isLt

/-- Entry `(p, q)` after group `j`'s update: the accumulator's entry plus the group's code product scaled, less the
    group's row sum times its scaled zero point — rows `1024 kb + 128 j + r` of the activations, word rows
    `16 j + r / 8` of the packed block, row `j` of the scale and zero-point blocks. -/
theorem stepJ_apply (i : grid0.Coords) (x0 : Vec Ideal S16x4096 .f32) (x1 : Vec Ideal S128x5504 .i32)
    (x2 x3 : Vec Ideal S8x5504 .f32) (j : Fin 8) (acc : Vec Ideal S16x5504 .f32) (p : Fin 16) (q : Fin 5504) :
    stepJ i x0 x1 x2 x3 j acc (ix2 p q)
      = acc (ix2 p q)
        + ((∑ r : Fin 128,
              x0 (ix2 p (⟨1024 * (i 1).val + 128 * j.val + r.val, by
                    have := kb_lt i; have := j.isLt; have := r.isLt; omega⟩ : Fin 4096))
              * (((Cert.Gptq.nib (x1 (ix2 (⟨16 * j.val + r.val / 8, by
                    have := j.isLt; have := r.isLt; omega⟩ : Fin 128) q)) (r.val % 8)).toInt : ℝ) : EReal))
            * x2 (ix2 j q)
          - (∑ r : Fin 128,
              x0 (ix2 p (⟨1024 * (i 1).val + 128 * j.val + r.val, by
                    have := kb_lt i; have := j.isLt; have := r.isLt; omega⟩ : Fin 4096)))
            * x3 (ix2 j q)) := by
  unfold stepJ
  rw [grpUpd_apply]
  have ho := off1_val i j
  -- the activation slice: row p, column 1024 kb + 128 j + r
  have hx : ∀ r : Fin 128,
      View.ld x0 (Rect.unit (s := S16x4096) (k0_off1 i (BitVec.ofNat 32 (128 * j.val))) S16x128.size (k0_off1_inb i j))
          (ix2 p r)
        = x0 (ix2 p (⟨1024 * (i 1).val + 128 * j.val + r.val, by
            have := kb_lt i; have := j.isLt; have := r.isLt; omega⟩ : Fin 4096)) := by
    intro r
    refine (ld_unit_ix2 x0 _ (k0_off1_inb i j) p r).trans (congrArg x0 ?_)
    funext d; apply Fin.ext
    match d with
    | ⟨0, _⟩ =>
      show (k0_off1 i (BitVec.ofNat 32 (128 * j.val))) 0 + p.val = p.val
      rw [ho]; simp
    | ⟨1, _⟩ =>
      show (k0_off1 i (BitVec.ofNat 32 (128 * j.val))) 1 + r.val = 1024 * (i 1).val + 128 * j.val + r.val
      rw [ho]; simp
  -- the packed words: word row 16 j + a, column q
  have hw : ∀ a : Fin 16,
      View.ld x1 (Rect.unit (s := S128x5504) ![16 * j.val, 0] S16x5504.size (inbW j)) (ix2 a q)
        = x1 (ix2 (⟨16 * j.val + a.val, by have := j.isLt; have := a.isLt; omega⟩ : Fin 128) q) := by
    intro a
    refine (ld_unit_ix2 x1 _ (inbW j) a q).trans (congrArg x1 ?_)
    funext d; apply Fin.ext
    match d with
    | ⟨0, _⟩ => rfl
    | ⟨1, _⟩ => show 0 + q.val = q.val; omega
  -- row j of a [8, 5504] block
  have hrow : ∀ y : Vec Ideal S8x5504 .f32,
      View.ld y (Rect.unit (s := S8x5504) ![j.val, 0] S1x5504.size (inbS j)) (ix2 (0 : Fin 1) q) = y (ix2 j q) := by
    intro y
    refine (ld_unit_ix2 y _ (inbS j) (0 : Fin 1) q).trans (congrArg y ?_)
    funext d; apply Fin.ext
    match d with
    | ⟨0, _⟩ => show j.val + 0 = j.val; omega
    | ⟨1, _⟩ => show 0 + q.val = q.val; omega
  rw [hrow x2, hrow x3]
  simp only [hx, hw]

end Cert.KernelIdeal.Hand

end
-- ==== Proof.KerHost.lean ====
/-
  WHAT THE KERNEL'S REGION FINDS in the two arrays the host operations before it compute: the scaled zero points
  `scales · (zero-point code + 1)` (the packed zero points unpacked exactly as in the specification, one added in the
  integers, read as a real) and the bias as a [1, 11008] row.
-/
import proofs.«411852_j24781961298171_3_alg».proof.Proof.Gen.KernelIdeal.Frame
import proofs.«411852_j24781961298171_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The five argument arrays as launched, each at its literal type. -/
abbrev argX (c : Dev nD) : FVec Ideal S16x4096 .f32 := m ((c : Thread nD τ).loc main_arg0)
abbrev argQW (c : Dev nD) : IVec S512x11008 32 := m ((c : Thread nD τ).loc main_arg1)
abbrev argQZ (c : Dev nD) : IVec S32x1376 32 := m ((c : Thread nD τ).loc main_arg2)
abbrev argSC (c : Dev nD) : FVec Ideal S32x11008 .f32 := m ((c : Thread nD τ).loc main_arg3)
abbrev argB (c : Dev nD) : FVec Ideal S11008 .f32 := m ((c : Thread nD τ).loc main_arg4)
/-- The two computed arrays as the region finds them. -/
abbrev arrSczp (c : Dev nD) : FVec Ideal S32x11008 .f32 := V m c main_v14
abbrev arrBias (c : Dev nD) : FVec Ideal S1x11008 .f32 := V m c main_v15

/-- The packed word array broadcast along a new unit axis and then along the nibble axis reads, at (G, q, j),
    the word at (G, q). -/
theorem words_apply (x : IVec S32x1376 32) (G : Fin 32) (q : Fin 1376) (j : Fin 8) :
    broadcastInDim S32x1376x8 ![0, 1, 2] bcast_S32x1376x1_S32x1376x8_0_1_2
        (broadcastInDim S32x1376x1 ![0, 1] bcast_S32x1376_S32x1376x1_0_1 x) (ix3 G q j) = x (ix2 G q) := by
  refine (broadcastInDim_apply _ _ _ (ix3 G q j) (ix3 G q (0 : Fin 1)) fun a => ?_).trans ?_
  · match a with
    | ⟨0, _⟩ => rfl
    | ⟨1, _⟩ => rfl
    | ⟨2, _⟩ => rfl
  · refine broadcastInDim_apply _ _ _ (ix3 G q (0 : Fin 1)) (ix2 G q) fun a => ?_
    match a with
    | ⟨0, _⟩ => rfl
    | ⟨1, _⟩ => rfl

/-- The eight shift amounts broadcast to [1, 1, 8] and then to [32, 1376, 8] read, at (G, q, j), amount j. -/
theorem amounts_apply (y : IVec S8 32) (G : Fin 32) (q : Fin 1376) (j : Fin 8) :
    broadcastInDim S32x1376x8 ![0, 1, 2] bcast_S1x1x8_S32x1376x8_0_1_2
        (broadcastInDim S1x1x8 ![2] bcast_S8_S1x1x8_2 y) (ix3 G q j) = y (ix1 j) := by
  refine (broadcastInDim_apply _ _ _ (ix3 G q j) (ix3 (0 : Fin 1) (0 : Fin 1) j) fun a => ?_).trans ?_
  · match a with
    | ⟨0, _⟩ => rfl
    | ⟨1, _⟩ => rfl
    | ⟨2, _⟩ => rfl
  · refine broadcastInDim_apply _ _ _ (ix3 (0 : Fin 1) (0 : Fin 1) j) (ix1 j) fun a => ?_
    match a with
    | ⟨0, _⟩ => rfl

/-- Shift amount j is 4 j: the position along the axis times the constant four. -/
theorem shifts_apply (j : Fin 8) :
    muli (iotaInDim S8 32 0) (broadcastInDim S8 ![] bcast_S_S8 (constantI S_ 32 4#32)) (ix1 j)
      = BitVec.ofNat 32 j.val * 4#32 := rfl

/-- The host's arithmetic right shift by the amount 4 j, j < 8, is below the width: it is the arithmetic shift by 4 j bits. -/
theorem shrsi_four_mul (w : BitVec 32) (j : Fin 8) :
    IntOp.shrsi .host w (BitVec.ofNat 32 j.val * 4#32) = w.sshiftRight (4 * j.val) := by
  have ht : (BitVec.ofNat 32 j.val * 4#32).toNat = 4 * j.val := by
    match j with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  have hlt : (BitVec.ofNat 32 j.val * 4#32).toNat < 32 := by rw [ht]; have := j.isLt; omega
  unfold IntOp.shrsi
  rw [if_pos hlt, BitVec.sshiftRight', ht]

/-- Entry `(G, n)` of the scaled zero points: the scale times the real reading of the zero-point code plus one. -/
theorem V_sczp (c : Dev nD) (G : Fin 32) (n : Fin 11008) :
    arrSczp m c (ix2 G n)
      = argSC m c (ix2 G n) * (((Cert.Gptq.zcode (argQZ m c) G n + 1#32).toInt : ℝ) : EReal) := by
  -- the array as the composed term of the host operations that wrote it
  have e : (V m c main_v14 : S32x11008.Idx → EReal) =
      mulf (F := Ideal) (argSC m c) (sitofp (F := Ideal) .f32
        (addi (shapeCast S32x11008
          (andi
            (Host.shrsi
              (broadcastInDim S32x1376x8 ![0, 1, 2] bcast_S32x1376x1_S32x1376x8_0_1_2
                (broadcastInDim S32x1376x1 ![0, 1] bcast_S32x1376_S32x1376x1_0_1 (argQZ m c)))
              (broadcastInDim S32x1376x8 ![0, 1, 2] bcast_S1x1x8_S32x1376x8_0_1_2
                (broadcastInDim S1x1x8 ![2] bcast_S8_S1x1x8_2
                  (muli (iotaInDim S8 32 0) (broadcastInDim S8 ![] bcast_S_S8 (constantI S_ 32 4#32))))))
            (broadcastInDim S32x1376x8 ![] bcast_S_S32x1376x8 (constantI S_ 32 15#32)))
          shapeCasts_S32x1376x8_S32x11008)
          (broadcastInDim S32x11008 ![] bcast_S_S32x11008 (constantI S_ 32 1#32)))) := by
    dsimp only [Gen.V, Gen.hostOps0]; after_results; rfl
  show (V m c main_v14 : S32x11008.Idx → EReal) (ix2 G n) = _
  rw [e]
  -- nibble number of column n, and the index (G, n / 8, n % 8) with the same row-major position as (G, n)
  let j : Fin 8 := ⟨n.val % 8, Nat.mod_lt _ (by decide)⟩
  have hcast : ∀ W : IVec S32x1376x8 32,
      shapeCast S32x11008 W shapeCasts_S32x1376x8_S32x11008 (ix2 G n) = W (ix3 G (Cert.Gptq.zcol n) j) := fun W => by
    refine shapeCast_apply W _ (ix2 G n) (ix3 G (Cert.Gptq.zcol n) j) ?_
    rw [Shape.rowMajor_val_three, Shape.rowMajor_val_two]
    show (G.val * 1376 + n.val / 8) * 8 + n.val % 8 = G.val * 11008 + n.val
    omega
  -- the integer under the conversion is the zero-point code plus one
  have hI : addi (shapeCast S32x11008
          (andi
            (Host.shrsi
              (broadcastInDim S32x1376x8 ![0, 1, 2] bcast_S32x1376x1_S32x1376x8_0_1_2
                (broadcastInDim S32x1376x1 ![0, 1] bcast_S32x1376_S32x1376x1_0_1 (argQZ m c)))
              (broadcastInDim S32x1376x8 ![0, 1, 2] bcast_S1x1x8_S32x1376x8_0_1_2
                (broadcastInDim S1x1x8 ![2] bcast_S8_S1x1x8_2
                  (muli (iotaInDim S8 32 0) (broadcastInDim S8 ![] bcast_S_S8 (constantI S_ 32 4#32))))))
            (broadcastInDim S32x1376x8 ![] bcast_S_S32x1376x8 (constantI S_ 32 15#32)))
          shapeCasts_S32x1376x8_S32x11008)
          (broadcastInDim S32x11008 ![] bcast_S_S32x11008 (constantI S_ 32 1#32)) (ix2 G n)
        = Cert.Gptq.zcode (argQZ m c) G n + 1#32 := by
    show shapeCast S32x11008 _ shapeCasts_S32x1376x8_S32x11008 (ix2 G n) + 1#32 = _
    rw [hcast]
    show (IntOp.shrsi .host (broadcastInDim S32x1376x8 ![0, 1, 2] bcast_S32x1376x1_S32x1376x8_0_1_2
          (broadcastInDim S32x1376x1 ![0, 1] bcast_S32x1376_S32x1376x1_0_1 (argQZ m c)) (ix3 G (Cert.Gptq.zcol n) j))
        (broadcastInDim S32x1376x8 ![0, 1, 2] bcast_S1x1x8_S32x1376x8_0_1_2
          (broadcastInDim S1x1x8 ![2] bcast_S8_S1x1x8_2
            (muli (iotaInDim S8 32 0) (broadcastInDim S8 ![] bcast_S_S8 (constantI S_ 32 4#32)))) (ix3 G (Cert.Gptq.zcol n) j))
        &&& 15#32) + 1#32 = _
    rw [words_apply, amounts_apply, shifts_apply, shrsi_four_mul]
    rfl
  show argSC m c (ix2 G n) * (((addi _ _ (ix2 G n) : BitVec 32).toInt : ℝ) : EReal) = _
  rw [hI]

/-- Entry `(0, n)` of the bias row is entry `n` of the bias. -/
theorem V_bias (c : Dev nD) (n : Fin 11008) :
    arrBias m c (ix2 (0 : Fin 1) n) = argB m c (ix1 n) := by
  -- the row is the bias reshaped [11008] → [1, 11008]: the same row-major position
  have e : (V m c main_v15 : S1x11008.Idx → EReal) = shapeCast S1x11008 (argB m c) shapeCasts_S11008_S1x11008 := by
    dsimp only [Gen.V, Gen.hostOps0]; after_results; rfl
  show (V m c main_v15 : S1x11008.Idx → EReal) (ix2 (0 : Fin 1) n) = _
  rw [e]
  refine shapeCast_apply _ _ _ _ ?_
  rw [Shape.rowMajor_val_two, Shape.rowMajor_val_one]
  show n.val = 0 * 11008 + n.val
  omega

end Cert.KernelIdeal.Hand

end
-- ==== Proof.KerBlocks.lean ====
/-
  THE INPUT BLOCKS AT A GRID POINT, entry by entry.  The grid has eight points `t`: column block `t / 4` (of two, 5504
  columns each) and row block `t % 4` (of four).  At point `t` the body sees the whole activations; rows
  `128 (t % 4) …` of the packed weights and rows `8 (t % 4) …` of the scales and of the scaled zero points, each at
  columns `5504 (t / 4) …`; and the bias row at those columns.  A block's coordinate is always its index times its
  extent plus the coordinate inside the block.
-/
import proofs.«411852_j24781961298171_3_alg».proof.Proof.Gen.KernelIdeal.Frame
import proofs.«411852_j24781961298171_3_alg».proof.Proof.KerHost
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The grid has eight points. -/
theorem tlt (t : Fin cfg0.N) : t.val < 8 := lt_of_lt_of_eq t.isLt (show cfg0.N = 8 from N_0)

/-- The five input blocks at point `t`, each at its literal type. -/
abbrev xblk (c : Dev nD) (t : Fin cfg0.N) : Vec Ideal S16x4096 .f32 := iblk m c 0 t
abbrev qwblk (c : Dev nD) (t : Fin cfg0.N) : Vec Ideal S128x5504 .i32 := iblk m c 1 t
abbrev scblk (c : Dev nD) (t : Fin cfg0.N) : Vec Ideal S8x5504 .f32 := iblk m c 2 t
abbrev szblk (c : Dev nD) (t : Fin cfg0.N) : Vec Ideal S8x5504 .f32 := iblk m c 3 t
abbrev bblk (c : Dev nD) (t : Fin cfg0.N) : Vec Ideal S1x5504 .f32 := iblk m c 4 t

/-- The printed index maps, decided once over the eight grid points.  Window 0 always takes block (0, 0); windows 1, 2
    and 3 take block (row block, column block) = (`t % 4`, `t / 4`); window 4 takes block (0, column block). -/
theorem idx_facts0 : ∀ t : Fin cfg0.N, win0_0.index t (0 : Fin 2) = 0 ∧ win0_0.index t (1 : Fin 2) = 0 :=
  (by decide +kernel : ∀ t : Fin grid0.N, _)
theorem idx_facts1 : ∀ t : Fin cfg0.N, win0_1.index t (0 : Fin 2) = t.val % 4 ∧ win0_1.index t (1 : Fin 2) = t.val / 4 :=
  (by decide +kernel : ∀ t : Fin grid0.N, _)
theorem idx_facts2 : ∀ t : Fin cfg0.N, win0_2.index t (0 : Fin 2) = t.val % 4 ∧ win0_2.index t (1 : Fin 2) = t.val / 4 :=
  (by decide +kernel : ∀ t : Fin grid0.N, _)
theorem idx_facts3 : ∀ t : Fin cfg0.N, win0_3.index t (0 : Fin 2) = t.val % 4 ∧ win0_3.index t (1 : Fin 2) = t.val / 4 :=
  (by decide +kernel : ∀ t : Fin grid0.N, _)
theorem idx_facts4 : ∀ t : Fin cfg0.N, win0_4.index t (0 : Fin 2) = 0 ∧ win0_4.index t (1 : Fin 2) = t.val / 4 :=
  (by decide +kernel : ∀ t : Fin grid0.N, _)

/-- The activations' block is the whole array: block index (0, 0), so the entry's coordinates are unchanged. -/
theorem xblk_apply (c : Dev nD) (t : Fin cfg0.N) (p : Fin 16) (k : Fin 4096) :
    xblk m c t (ix2 p k) = argX m c (ix2 p k) := by
  obtain ⟨e0, e1⟩ := idx_facts0 t
  show V m c main_arg0 (((cfg0.win 0).blk t).view.emb (ix2 p k)) = _
  rw [V_main_arg0]
  show m ((c : Thread nD τ).loc main_arg0) _ = m ((c : Thread nD τ).loc main_arg0) _
  congr 1
  funext x; apply Fin.ext
  match x with
  | ⟨0, _⟩ => show win0_0.index t (0 : Fin 2) * 16 + 1 * p.val = p.val; omega
  | ⟨1, _⟩ => show win0_0.index t (1 : Fin 2) * 4096 + 1 * k.val = k.val; omega

/-- The packed weights' block: row `128 (t % 4) + a`, column `5504 (t / 4) + q` of the array (block index times block
    extent plus the coordinate inside the block, on each axis). -/
theorem qwblk_apply (c : Dev nD) (t : Fin cfg0.N) (a : Fin 128) (q : Fin 5504) :
    qwblk m c t (ix2 a q)
      = argQW m c (ix2 (⟨128 * (t.val % 4) + a.val, by have := tlt t; have := a.isLt; omega⟩ : Fin 512)
          (⟨5504 * (t.val / 4) + q.val, by have := tlt t; have := q.isLt; omega⟩ : Fin 11008)) := by
  obtain ⟨e0, e1⟩ := idx_facts1 t
  show V m c main_arg1 (((cfg0.win 1).blk t).view.emb (ix2 a q)) = _
  rw [V_main_arg1]
  show m ((c : Thread nD τ).loc main_arg1) _ = m ((c : Thread nD τ).loc main_arg1) _
  congr 1
  funext x; apply Fin.ext
  match x with
  | ⟨0, _⟩ => show win0_1.index t (0 : Fin 2) * 128 + 1 * a.val = 128 * (t.val % 4) + a.val; omega
  | ⟨1, _⟩ => show win0_1.index t (1 : Fin 2) * 5504 + 1 * q.val = 5504 * (t.val / 4) + q.val; omega

/-- The scales' block: row `8 (t % 4) + g`, column `5504 (t / 4) + q` of the array. -/
theorem scblk_apply (c : Dev nD) (t : Fin cfg0.N) (g : Fin 8) (q : Fin 5504) :
    scblk m c t (ix2 g q)
      = argSC m c (ix2 (⟨8 * (t.val % 4) + g.val, by have := tlt t; have := g.isLt; omega⟩ : Fin 32)
          (⟨5504 * (t.val / 4) + q.val, by have := tlt t; have := q.isLt; omega⟩ : Fin 11008)) := by
  obtain ⟨e0, e1⟩ := idx_facts2 t
  show V m c main_arg3 (((cfg0.win 2).blk t).view.emb (ix2 g q)) = _
  rw [V_main_arg3]
  show m ((c : Thread nD τ).loc main_arg3) _ = m ((c : Thread nD τ).loc main_arg3) _
  congr 1
  funext x; apply Fin.ext
  match x with
  | ⟨0, _⟩ => show win0_2.index t (0 : Fin 2) * 8 + 1 * g.val = 8 * (t.val % 4) + g.val; omega
  | ⟨1, _⟩ => show win0_2.index t (1 : Fin 2) * 5504 + 1 * q.val = 5504 * (t.val / 4) + q.val; omega

/-- The scaled zero points' block: row `8 (t % 4) + g`, column `5504 (t / 4) + q` of the array the host operations left. -/
theorem szblk_apply (c : Dev nD) (t : Fin cfg0.N) (g : Fin 8) (q : Fin 5504) :
    szblk m c t (ix2 g q)
      = arrSczp m c (ix2 (⟨8 * (t.val % 4) + g.val, by have := tlt t; have := g.isLt; omega⟩ : Fin 32)
          (⟨5504 * (t.val / 4) + q.val, by have := tlt t; have := q.isLt; omega⟩ : Fin 11008)) := by
  obtain ⟨e0, e1⟩ := idx_facts3 t
  show V m c main_v14 (((cfg0.win 3).blk t).view.emb (ix2 g q)) = V m c main_v14 _
  congr 1
  funext x; apply Fin.ext
  match x with
  | ⟨0, _⟩ => show win0_3.index t (0 : Fin 2) * 8 + 1 * g.val = 8 * (t.val % 4) + g.val; omega
  | ⟨1, _⟩ => show win0_3.index t (1 : Fin 2) * 5504 + 1 * q.val = 5504 * (t.val / 4) + q.val; omega

/-- The bias row's block: column `5504 (t / 4) + q` of the one-row array the host operations left. -/
theorem bblk_apply (c : Dev nD) (t : Fin cfg0.N) (q : Fin 5504) :
    bblk m c t (ix2 (0 : Fin 1) q)
      = arrBias m c (ix2 (0 : Fin 1) (⟨5504 * (t.val / 4) + q.val, by have := tlt t; have := q.isLt; omega⟩ : Fin 11008)) := by
  obtain ⟨e0, e1⟩ := idx_facts4 t
  show V m c main_v15 (((cfg0.win 4).blk t).view.emb (ix2 (0 : Fin 1) q)) = V m c main_v15 _
  congr 1
  funext x; apply Fin.ext
  match x with
  | ⟨0, _⟩ => show win0_4.index t (0 : Fin 2) * 1 + 1 * (0 : Fin 1).val = (0 : Fin 1).val; omega
  | ⟨1, _⟩ => show win0_4.index t (1 : Fin 2) * 5504 + 1 * q.val = 5504 * (t.val / 4) + q.val; omega

/-- The point's coordinates: the column block and the row block. -/
theorem coords_val (t : Fin cfg0.N) :
    ((grid0.coords t) 0).val = t.val / 4 ∧ ((grid0.coords t) 1).val = t.val % 4 :=
  (by decide +kernel : ∀ t : Fin grid0.N, ((grid0.coords t) 0).val = t.val / 4 ∧ ((grid0.coords t) 1).val = t.val % 4) t

end Cert.KernelIdeal.Hand

end
-- ==== Proof.KerInv.lean ====
/-
  THE ACCUMULATOR POINT BY POINT, AND THE RESULT ARRAY.  Grid point `t` is row block `t % 4` of column block `t / 4`.
  Its eight groups are the specification's groups `8 (t % 4) + j`, its columns the result's columns `5504 (t / 4) + q`:
  each update adds that group's term, so after point `t` the accumulator holds the partial sum over the first
  `8 (t % 4) + 8` groups; the last point of a column block writes that sum plus the bias to the result, and the two
  column blocks cover it.
-/
import proofs.«411852_j24781961298171_3_alg».proof.Proof.KerVal
import proofs.«411852_j24781961298171_3_alg».proof.Proof.KerBlocks
import proofs.«411852_j24781961298171_3_alg».proof.Proof.Gen.KernelIdeal.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Cert.Gptq

variable (m : (ℓ : Loc nD τ sig) → Buf (Elt Ideal) ℓ)

/-- The result column that column `q` of point `t`'s block is. -/
def colOf (t : Fin cfg0.N) (q : Fin 5504) : Fin 11008 :=
  ⟨5504 * (t.val / 4) + q.val, by have := tlt t; have := q.isLt; omega⟩

/-- The specification's group that group `j` of point `t` is. -/
def grpOf (t : Fin cfg0.N) (j : Fin 8) : Fin 32 :=
  ⟨8 * (t.val % 4) + j.val, by have := j.isLt; omega⟩

/-- The specification's term of group `G = 8 kb + j` with its rows and word rows written out: row `r` of the group is
    row `1024 kb + 128 j + r`, in word row `128 kb + 16 j + r / 8`, nibble `r % 8`. -/
theorem grpTerm_rows (x : FVec Ideal SX .f32) (qw : IVec SQW 32) (qz : IVec SQZ 32) (sc : FVec Ideal SSC .f32)
    (p : Fin 16) (n : Fin 11008) (G : Fin 32) (kb j : ℕ) (hG : G.val = 8 * kb + j) (hj : j < 8) (hkb : kb < 4) :
    grpTerm x qw qz sc p n G
      = (∑ r : Fin 128,
            x (ix2 p (⟨1024 * kb + 128 * j + r.val, by have := r.isLt; omega⟩ : Fin 4096))
              * (((nib (qw (ix2 (⟨128 * kb + (16 * j + r.val / 8), by have := r.isLt; omega⟩ : Fin 512) n))
                    (r.val % 8)).toInt : ℝ) : EReal))
          * sc (ix2 G n)
        - (∑ r : Fin 128, x (ix2 p (⟨1024 * kb + 128 * j + r.val, by have := r.isLt; omega⟩ : Fin 4096)))
          * (sc (ix2 G n) * (((zcode qz G n + 1#32).toInt : ℝ) : EReal)) := by
  unfold grpTerm wcode
  have hk : ∀ r : Fin 128, krow G r = (⟨1024 * kb + 128 * j + r.val, by have := r.isLt; omega⟩ : Fin 4096) := by
    intro r; apply Fin.ext; show 128 * G.val + r.val = 1024 * kb + 128 * j + r.val; omega
  have hw : ∀ r : Fin 128, wrow (⟨1024 * kb + 128 * j + r.val, by have := r.isLt; omega⟩ : Fin 4096)
      = (⟨128 * kb + (16 * j + r.val / 8), by have := r.isLt; omega⟩ : Fin 512) := by
    intro r; apply Fin.ext; show (1024 * kb + 128 * j + r.val) / 8 = 128 * kb + (16 * j + r.val / 8); omega
  have hm : ∀ r : Fin 128, (1024 * kb + 128 * j + r.val) % 8 = r.val % 8 := by
    intro r; omega
  simp only [hk, hw, hm]

/-- Group `j`'s update at point `t` adds the specification's term of group `8 (t % 4) + j` at column
    `5504 (t / 4) + q`. -/
theorem stepJ_term (c : Dev nD) (t : Fin cfg0.N) (j : Fin 8) (acc : Vec Ideal S16x5504 .f32) (p : Fin 16) (q : Fin 5504) :
    stepJ (grid0.coords t) (xblk m c t) (qwblk m c t) (scblk m c t) (szblk m c t) j acc (ix2 p q)
      = acc (ix2 p q)
        + grpTerm (argX m c) (argQW m c) (argQZ m c) (argSC m c) p (colOf t q) (grpOf t j) := by
  rw [stepJ_apply]
  simp only [xblk_apply, qwblk_apply, scblk_apply, szblk_apply]
  have hkb : ((grid0.coords t) 1).val = t.val % 4 := (coords_val t).2
  simp only [hkb]
  rw [grpTerm_rows _ _ _ _ p (colOf t q) (grpOf t j) (t.val % 4) j.val rfl j.isLt (by omega)]
  unfold grpOf colOf
  rw [V_sczp]

/-- Group `j`'s update takes the partial sum over `8 (t % 4) + j` groups to the one over one more. -/
theorem stepJ_acc (c : Dev nD) (t : Fin cfg0.N) (j : Fin 8) (acc : Vec Ideal S16x5504 .f32) (p : Fin 16) (q : Fin 5504)
    (h : acc (ix2 p q) = accUpTo (argX m c) (argQW m c) (argQZ m c) (argSC m c) p (colOf t q) (8 * (t.val % 4) + j.val)) :
    stepJ (grid0.coords t) (xblk m c t) (qwblk m c t) (scblk m c t) (szblk m c t) j acc (ix2 p q)
      = accUpTo (argX m c) (argQW m c) (argQZ m c) (argSC m c) p (colOf t q) (8 * (t.val % 4) + j.val + 1) := by
  rw [stepJ_term, h, accUpTo_succ _ _ _ _ _ _ _ (by have := j.isLt; omega)]
  rfl

/-- The eight updates at point `t` take the partial sum over `8 (t % 4)` groups to the one over eight more. -/
theorem chain8_acc (c : Dev nD) (t : Fin cfg0.N) (acc : Vec Ideal S16x5504 .f32) (p : Fin 16) (q : Fin 5504)
    (h : acc (ix2 p q) = accUpTo (argX m c) (argQW m c) (argQZ m c) (argSC m c) p (colOf t q) (8 * (t.val % 4))) :
    chain8 (grid0.coords t) (xblk m c t) (qwblk m c t) (scblk m c t) (szblk m c t) acc (ix2 p q)
      = accUpTo (argX m c) (argQW m c) (argQZ m c) (argSC m c) p (colOf t q) (8 * (t.val % 4) + 8) := by
  unfold chain8
  have h0 := stepJ_acc m c t 0 acc p q h
  have h1 := stepJ_acc m c t 1 _ p q h0
  have h2 := stepJ_acc m c t 2 _ p q h1
  have h3 := stepJ_acc m c t 3 _ p q h2
  have h4 := stepJ_acc m c t 4 _ p q h3
  have h5 := stepJ_acc m c t 5 _ p q h4
  have h6 := stepJ_acc m c t 6 _ p q h5
  exact stepJ_acc m c t 7 _ p q h6

/-- AFTER POINT `n` the accumulator holds, at `(p, q)`, the partial sum over the first `8 (n % 4) + 8` groups at column
    `5504 (n / 4) + q`: from zero at a first point of a column block, from the point before elsewhere. -/
theorem scratch_inv (c : Dev nD) : ∀ (n : ℕ) (hn : n < cfg0.N) (p : Fin 16) (q : Fin 5504),
    ((outsAt0 m c n hn).2 : Vec Ideal S16x5504 .f32) (ix2 p q)
      = accUpTo (argX m c) (argQW m c) (argQZ m c) (argSC m c) p (colOf ⟨n, hn⟩ q) (8 * (n % 4) + 8) := by
  intro n
  induction n using Nat.strong_induction_on with
  | _ n ih =>
    intro hn p q
    have hN : n < 8 := tlt ⟨n, hn⟩
    by_cases h0 : n % 4 = 0
    · have h1 : ¬ n % 4 = 3 := by omega
      rw [outsAt0_A m c ⟨n, hn⟩ h0 h1]
      dsimp only
      rw [sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (xblk m c ⟨n, hn⟩) (qwblk m c ⟨n, hn⟩) (scblk m c ⟨n, hn⟩) (szblk m c ⟨n, hn⟩) (bblk m c ⟨n, hn⟩)]
      refine chain8_acc m c ⟨n, hn⟩ (k0_pay3 (F := Ideal)) p q ?_
      rw [pay3_apply]
      show (0 : EReal) = accUpTo (argX m c) (argQW m c) (argQZ m c) (argSC m c) p (colOf ⟨n, hn⟩ q) (8 * (n % 4))
      rw [h0]
      exact (accUpTo_zero _ _ _ _ _ _).symm
    · have hpos : 0 < n := Nat.pos_of_ne_zero (fun e => h0 (by rw [e]))
      have hprev := ih (n - 1) (by omega) (Nat.lt_of_le_of_lt (Nat.sub_le _ _) hn) p q
      have hcol : colOf ⟨n - 1, Nat.lt_of_le_of_lt (Nat.sub_le _ _) hn⟩ q = colOf ⟨n, hn⟩ q := by
        apply Fin.ext
        show 5504 * ((n - 1) / 4) + q.val = 5504 * (n / 4) + q.val
        omega
      have hcnt : 8 * ((n - 1) % 4) + 8 = 8 * (n % 4) := by omega
      rw [hcol, hcnt] at hprev
      by_cases h1 : n % 4 = 3
      · rw [outsAt0_C m c ⟨n, hn⟩ h0 h1]
        dsimp only
        rw [sout0_C_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (xblk m c ⟨n, hn⟩) (qwblk m c ⟨n, hn⟩) (scblk m c ⟨n, hn⟩) (szblk m c ⟨n, hn⟩) (bblk m c ⟨n, hn⟩)]
        exact chain8_acc m c ⟨n, hn⟩ _ p q hprev
      · rw [outsAt0_B m c ⟨n, hn⟩ h0 h1]
        dsimp only
        rw [sout0_B_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (xblk m c ⟨n, hn⟩) (qwblk m c ⟨n, hn⟩) (scblk m c ⟨n, hn⟩) (szblk m c ⟨n, hn⟩) (bblk m c ⟨n, hn⟩)]
        exact chain8_acc m c ⟨n, hn⟩ _ p q hprev

/-! ## From the last point of each column block to the result array -/

/-- The result window's block index at point `t` is `(0, t / 4)`, -/
theorem idx_facts5 : ∀ t : Fin cfg0.N, win0_5.index t (0 : Fin 2) = 0 ∧ win0_5.index t (1 : Fin 2) = t.val / 4 :=
  (by decide +kernel : ∀ t : Fin grid0.N, _)

/-- and it is written back exactly at the last point of a column block. -/
theorem flush5_iff : ∀ t : Fin cfg0.N, (cfg0.win 5).flush t = true ↔ t.val % 4 = 3 :=
  (by decide +kernel : ∀ t : Fin grid0.N, _)

/-- The result array: the group-wise form of the specification, entry by entry. -/
def outG (c : Dev nD) : Vec Ideal S16x11008 .f32 :=
  fun i => kerForm (argX m c) (argQW m c) (argQZ m c) (argSC m c) (argB m c) (i 0) (i 1)

/-- WHAT A LAST POINT WRITES BACK is its block of the result array: the accumulator after all 32 groups plus the
    bias. -/
theorem flushed_eq (c : Dev nD) (t : Fin cfg0.N) (hf : (cfg0.win 5).flush t = true) :
    (dats m 0 c).flushed 5 t = ((cfg0.win 5).blk t).view.read (Elt Ideal) (outG m c) := by
  have h1 : t.val % 4 = 3 := (flush5_iff t).mp hf
  have h0 : ¬ t.val % 4 = 0 := by omega
  -- the accumulator the output store reads is the point's own final accumulator
  have hs : chain8 (grid0.coords t) (xblk m c t) (qwblk m c t) (scblk m c t) (szblk m c t)
      (outsAt0 m c (t.val - 1) (Nat.lt_of_le_of_lt (Nat.sub_le _ _) t.isLt)).2 = (outsAt0 m c t.val t.isLt).2 := by
    rw [outsAt0_C m c t h0 h1]
    dsimp only
    rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk m c t) (qwblk m c t) (scblk m c t) (szblk m c t) (bblk m c t)]
  rw [Cert.KernelIdeal.Value.flushed5_C m c t h0 h1]
  rw [out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk m c t) (qwblk m c t) (scblk m c t) (szblk m c t) (bblk m c t)]
  rw [hs]
  refine funext fun (y : S16x5504.Idx) => ?_
  obtain ⟨p, q, rfl⟩ : ∃ (p : Fin 16) (q : Fin 5504), y = ix2 p q := ⟨y 0, y 1, eq_ix2 y⟩
  show k0_pay2 (F := Ideal) (outsAt0 m c t.val t.isLt).2 (bblk m c t) (ix2 p q)
      = outG m c (((cfg0.win 5).blk t).view.emb (ix2 p q))
  obtain ⟨e0, e1⟩ := idx_facts5 t
  have he : ((cfg0.win 5).blk t).view.emb (ix2 p q) = ix2 p (colOf t q) := by
    funext a; apply Fin.ext
    match a with
    | ⟨0, _⟩ => show win0_5.index t (0 : Fin 2) * 16 + 1 * p.val = p.val; omega
    | ⟨1, _⟩ => show win0_5.index t (1 : Fin 2) * 5504 + 1 * q.val = 5504 * (t.val / 4) + q.val; omega
  rw [he, pay2_apply, scratch_inv m c t.val t.isLt p q, bblk_apply, V_bias]
  show _ = kerForm (argX m c) (argQW m c) (argQZ m c) (argSC m c) (argB m c) p (colOf t q)
  unfold kerForm
  rw [h1]
  rfl

/-- An index of the result is in point `t`'s block iff each coordinate is in the block's range on its axis. -/
theorem mem_blk5 (t : Fin cfg0.N) (i : S16x11008.Idx) :
    i ∈ ((cfg0.win 5).blk t).view.set ↔ ∀ a : Fin 2, win0_5.index t a * S16x5504.size a ≤ (i a).val
      ∧ (i a).val < win0_5.index t a * S16x5504.size a + S16x5504.size a := by
  show i ∈ ((View.whole main_v16).slice (win0_5.rect t)).set ↔ _
  rw [View.set_slice_whole, Rect.mem_set_unit]
  exact Iff.rfl

/-- The two column blocks' last points cover the result. -/
theorem cover5 (i : S16x11008.Idx) :
    ∃ t : Fin cfg0.N, (cfg0.win 5).flush t = true ∧ i ∈ ((cfg0.win 5).blk t).view.set := by
  have hi0 : (i 0).val < 16 := (i 0).isLt
  have hi1 : (i 1).val < 11008 := (i 1).isLt
  let t : Fin cfg0.N := ⟨4 * ((i 1).val / 5504) + 3, by rw [show cfg0.N = 8 from N_0]; omega⟩
  have htv : t.val = 4 * ((i 1).val / 5504) + 3 := rfl
  refine ⟨t, (flush5_iff t).mpr (by omega), ?_⟩
  rw [mem_blk5]
  obtain ⟨e0, e1⟩ := idx_facts5 t
  intro a
  match a with
  | ⟨0, _⟩ =>
    show win0_5.index t (0 : Fin 2) * 16 ≤ (i 0).val ∧ (i 0).val < win0_5.index t (0 : Fin 2) * 16 + 16
    omega
  | ⟨1, _⟩ =>
    show win0_5.index t (1 : Fin 2) * 5504 ≤ (i 1).val ∧ (i 1).val < win0_5.index t (1 : Fin 2) * 5504 + 5504
    omega

/-- THE RESULT ARRAY after the run is the group-wise form. -/
theorem final5 (c : Dev nD) : (dats m 0 c).arrAt 5 cfg0.N = outG m c :=
  (dats m 0 c).arrAt_eq_of_cover 5 (outG m c) (fun t hf => flushed_eq m c t hf) (cover5)

/-- THE KERNEL'S RUN at the ideal instance: every weakly fair execution terminates with the result at the group-wise
    form of the argument arrays and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v16) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩)
    (Cert.KernelIdeal.Value.run_blocks m ρ)

end Cert.KernelIdeal.Hand

end
-- ==== Proof.RefTerm.lean ====
/-
  THE REFERENCE'S RESULT AS ONE TERM of its five argument arrays: the host operations of the reference's @main composed,
  stage by stage, in the order the program applies them.

  * `shifts`: the eight shift amounts 0, 4, …, 28 (an iota times four).
  * `wcodes`: the packed weights spread over a new middle axis of eight, each copy shifted by its amount and masked to
    four bits, then the first two axes merged: the [4096, 11008] matrix of weight codes.
  * `zcodes`: the packed zero points spread over a new last axis of eight, shifted and masked the same way, then the
    last two axes merged: the [32, 11008] matrix of zero-point codes.
  * `groupOf`: the row numbers 0, …, 4095 floor-divided by 128 (the truncated quotient, lowered by one where the
    operands' signs differ and the remainder is not zero), and `rowsOf` the same made non-negative (32 added below zero)
    as a column: the start indices of the two row gathers.
  * `deq`: the gathered scales times the real reading of (weight code − (gathered zero-point code + 1)).
  * `refTerm`: `x` contracted with `deq` over the 4096 rows, plus the bias spread over the 16 result rows.
-/
import proofs.«411852_j24781961298171_3_alg».proof.Proof.Gen.ReferenceIdeal

noncomputable section

namespace Cert.ReferenceIdeal.Hand

open Cert.ReferenceIdeal Cert.ReferenceIdeal.Gen Idealize.ShloMosaic Idealize.ShloMosaic.TcCoe

variable {F : FTy → Type} [FloatOps F]

/-- The shift amounts 0, 4, …, 28. -/
def shifts : IVec S8 32 :=
  muli (iotaInDim S8 32 0) (broadcastInDim S8 ![] bcast_S_S8 (constantI S_ 32 4#32))

/-- The [4096, 11008] weight codes: word row `k / 8`, shifted by `4 (k % 8)`, masked to four bits. -/
def wcodes (a1 : IVec S512x11008 32) : IVec S4096x11008 32 :=
  shapeCast S4096x11008
    (andi
      (Host.shrsi
        (broadcastInDim S512x8x11008 ![0, 1, 2] bcast_S512x1x11008_S512x8x11008_0_1_2
          (broadcastInDim S512x1x11008 ![0, 2] bcast_S512x11008_S512x1x11008_0_2 a1))
        (broadcastInDim S512x8x11008 ![0, 1, 2] bcast_S1x8x1_S512x8x11008_0_1_2
          (broadcastInDim S1x8x1 ![1] bcast_S8_S1x8x1_1 shifts)))
      (broadcastInDim S512x8x11008 ![] bcast_S_S512x8x11008 (constantI S_ 32 15#32)))
    shapeCasts_S512x8x11008_S4096x11008

/-- The [32, 11008] zero-point codes: word column `n / 8`, shifted by `4 (n % 8)`, masked to four bits. -/
def zcodes (a2 : IVec S32x1376 32) : IVec S32x11008 32 :=
  shapeCast S32x11008
    (andi
      (Host.shrsi
        (broadcastInDim S32x1376x8 ![0, 1, 2] bcast_S32x1376x1_S32x1376x8_0_1_2
          (broadcastInDim S32x1376x1 ![0, 1] bcast_S32x1376_S32x1376x1_0_1 a2))
        (broadcastInDim S32x1376x8 ![0, 1, 2] bcast_S1x1x8_S32x1376x8_0_1_2
          (broadcastInDim S1x1x8 ![2] bcast_S8_S1x1x8_2 shifts)))
      (broadcastInDim S32x1376x8 ![] bcast_S_S32x1376x8 (constantI S_ 32 15#32)))
    shapeCasts_S32x1376x8_S32x11008

/-- The divisor 128 spread over the 4096 rows. -/
def div128 : IVec S4096 32 := broadcastInDim S4096 ![] bcast_S_S4096 (constantI S_ 32 128#32)

/-- The row numbers floor-divided by 128: the truncated quotient, one less where the signs of the row number and of
    128 differ and the remainder is not zero. -/
def groupOf : IVec S4096 32 :=
  select
    (andi
      (cmpi .ne (signi (iotaInDim S4096 32 0))
        (broadcastInDim S4096 ![] bcast_S_S4096 (signi (constantI S_ 32 128#32))))
      (cmpi .ne (Host.remsi (iotaInDim S4096 32 0) div128)
        (broadcastInDim S4096 ![] bcast_S_S4096 (constantI S_ 32 0#32))))
    (subi (Host.divsi (iotaInDim S4096 32 0) div128)
      (broadcastInDim S4096 ![] bcast_S_S4096 (constantI S_ 32 1#32)))
    (Host.divsi (iotaInDim S4096 32 0) div128)

/-- The gathers' start indices: the group numbers, 32 added to a negative one, as a column. -/
def rowsOf : IVec S4096x1 32 :=
  broadcastInDim S4096x1 ![0] bcast_S4096_S4096x1_0
    (select
      (cmpi .slt groupOf (broadcastInDim S4096 ![] bcast_S_S4096 (constantI S_ 32 0#32)))
      (addi groupOf (broadcastInDim S4096 ![] bcast_S_S4096 (constantI S_ 32 32#32)))
      groupOf)

/-- The dequantised [4096, 11008] weights: the row's group's scale times the real reading of
    (weight code − (the group's zero-point code + 1)). -/
def deq (a1 : IVec S512x11008 32) (a2 : IVec S32x1376 32) (a3 : FVec F S32x11008 .f32) : FVec F S4096x11008 .f32 :=
  mulf
    (Host.gather gather_S32x11008_S4096x1_S4096x11008_1_0_n_n_0_1_111008 a3 rowsOf)
    (sitofp (F := F) .f32
      (subi (wcodes a1)
        (addi (Host.gather gather_S32x11008_S4096x1_S4096x11008_1_0_n_n_0_1_111008 (zcodes a2) rowsOf)
          (broadcastInDim S4096x11008 ![] bcast_S_S4096x11008 (constantI S_ 32 1#32)))))

/-- The reference's result: `x · deq + bias`. -/
def refTerm (a0 : FVec F S16x4096 .f32) (a1 : IVec S512x11008 32) (a2 : IVec S32x1376 32)
    (a3 : FVec F S32x11008 .f32) (a4 : FVec F S11008 .f32) : FVec F S16x11008 .f32 :=
  addf
    (Host.dotGeneral dot_S16x4096_S4096x11008_S16x11008_1_0_0_1_n_n none a0 (deq a1 a2 a3))
    (broadcastInDim S16x11008 ![0, 1] bcast_S1x11008_S16x11008_0_1
      (broadcastInDim S1x11008 ![1] bcast_S11008_S1x11008_1 a4))

end Cert.ReferenceIdeal.Hand

end
-- ==== Proof.RefRun.lean ====
/-
  THE REFERENCE'S RUN: every weakly fair execution of the reference's @main terminates with its result buffer at
  `refTerm` of the argument arrays (RefTerm.lean) and the arguments unchanged.

  @main is a straight line of sixty-nine host operations once its one call is unfolded: twenty-four of its own (the
  shift amounts, the two unpackings, the row numbers and the divisor 128), then the seventeen of `floor_divide` run
  on the row numbers and 128 into that call's own buffers (the last of them `_where`'s select, writing the buffer
  that becomes %20), then twenty-eight more of its own (the start indices, the two row gathers, the dequantisation,
  the contraction and the bias). The run of such a line ends with every buffer at the fold of the operations'
  results over the launch contents. That fold read at the result buffer is `refTerm` of the five arguments: each
  operation's result at its own buffer is its function of its operands' contents, and the composition is the term
  RefTerm.lean writes stage by stage (the callee's copy of the scalar 128 is the identity). Read at an argument's
  buffer, which no operation writes, the fold is the argument.
-/
import proofs.«411852_j24781961298171_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's sixty-nine operations in order, the call to `floor_divide` unfolded at its place: its operands are the
    row numbers' buffer and the divisor's, its values' buffers the call's record `main_call0`, and `_where`'s one
    select writes `main_call0.call0.v0`, the buffer of @main's %20. -/
abbrev ops : List (HloOp τ sig (Elt F)) :=
  [ nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v0 main_v1 main_v2 (muli : (⟨S8, .i32⟩ : BufTy).Contents (Elt F) → (⟨S8, .i32⟩ : BufTy).Contents (Elt F) → (⟨S8, .i32⟩ : BufTy).Contents (Elt F)),
    unary main_arg1 main_v3 (broadcastInDim S512x1x11008 ![0, 2] bcast_S512x11008_S512x1x11008_0_2 : (⟨S512x11008, .i32⟩ : BufTy).Contents (Elt F) → (⟨S512x1x11008, .i32⟩ : BufTy).Contents (Elt F)),
    unary main_v2 main_v4 (broadcastInDim S1x8x1 ![1] bcast_S8_S1x8x1_1 : (⟨S8, .i32⟩ : BufTy).Contents (Elt F) → (⟨S1x8x1, .i32⟩ : BufTy).Contents (Elt F)),
    unary main_v3 main_v5 (broadcastInDim S512x8x11008 ![0, 1, 2] bcast_S512x1x11008_S512x8x11008_0_1_2 : (⟨S512x1x11008, .i32⟩ : BufTy).Contents (Elt F) → (⟨S512x8x11008, .i32⟩ : BufTy).Contents (Elt F)),
    unary main_v4 main_v6 (broadcastInDim S512x8x11008 ![0, 1, 2] bcast_S1x8x1_S512x8x11008_0_1_2 : (⟨S1x8x1, .i32⟩ : BufTy).Contents (Elt F) → (⟨S512x8x11008, .i32⟩ : BufTy).Contents (Elt F)),
    binary main_v5 main_v6 main_v7 (Host.shrsi : (⟨S512x8x11008, .i32⟩ : BufTy).Contents (Elt F) → (⟨S512x8x11008, .i32⟩ : BufTy).Contents (Elt F) → (⟨S512x8x11008, .i32⟩ : BufTy).Contents (Elt F)),
    nullary main_c_0 (constantI S_ 32 15#32),
    unary main_c_0 main_v8 (broadcastInDim S512x8x11008 ![] bcast_S_S512x8x11008 : (⟨S_, .i32⟩ : BufTy).Contents (Elt F) → (⟨S512x8x11008, .i32⟩ : BufTy).Contents (Elt F)),
    binary main_v7 main_v8 main_v9 (andi : (⟨S512x8x11008, .i32⟩ : BufTy).Contents (Elt F) → (⟨S512x8x11008, .i32⟩ : BufTy).Contents (Elt F) → (⟨S512x8x11008, .i32⟩ : BufTy).Contents (Elt F)),
    reshape main_v9 main_v10 rfl shapeCasts_S512x8x11008_S4096x11008,
    unary main_arg2 main_v11 (broadcastInDim S32x1376x1 ![0, 1] bcast_S32x1376_S32x1376x1_0_1 : (⟨S32x1376, .i32⟩ : BufTy).Contents (Elt F) → (⟨S32x1376x1, .i32⟩ : BufTy).Contents (Elt F)),
    unary main_v2 main_v12 (broadcastInDim S1x1x8 ![2] bcast_S8_S1x1x8_2 : (⟨S8, .i32⟩ : BufTy).Contents (Elt F) → (⟨S1x1x8, .i32⟩ : BufTy).Contents (Elt F)),
    unary main_v11 main_v13 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    unary main_v12 main_v14 (broadcastInDim S32x1376x8 ![0, 1, 2] bcast_S1x1x8_S32x1376x8_0_1_2 : (⟨S1x1x8, .i32⟩ : BufTy).Contents (Elt F) → (⟨S32x1376x8, .i32⟩ : BufTy).Contents (Elt F)),
    binary main_v13 main_v14 main_v15 (Host.shrsi : (⟨S32x1376x8, .i32⟩ : BufTy).Contents (Elt F) → (⟨S32x1376x8, .i32⟩ : BufTy).Contents (Elt F) → (⟨S32x1376x8, .i32⟩ : BufTy).Contents (Elt F)),
    nullary main_c_1 (constantI S_ 32 15#32),
    unary main_c_1 main_v16 (broadcastInDim S32x1376x8 ![] bcast_S_S32x1376x8 : (⟨S_, .i32⟩ : BufTy).Contents (Elt F) → (⟨S32x1376x8, .i32⟩ : BufTy).Contents (Elt F)),
    binary main_v15 main_v16 main_v17 (andi : (⟨S32x1376x8, .i32⟩ : BufTy).Contents (Elt F) → (⟨S32x1376x8, .i32⟩ : BufTy).Contents (Elt F) → (⟨S32x1376x8, .i32⟩ : BufTy).Contents (Elt F)),
    reshape main_v17 main_v18 rfl shapeCasts_S32x1376x8_S32x11008,
    nullary main_v19 (iotaInDim S4096 32 0),
    nullary main_c_2 (constantI S_ 32 128#32),
    TRef.unary (.of main_c_2) main_call0.v0 id,
    TRef.unary main_call0.v0 main_call0.v1 (broadcastInDim S4096 ![] bcast_S_S4096),
    TRef.binary (.of main_v19) main_call0.v1 main_call0.v2 Host.divsi,
    TRef.unary (.of main_v19) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v19) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_3 (constantI S_ 32 0#32),
    unary main_c_3 main_v21 (broadcastInDim S4096 ![] bcast_S_S4096 : (⟨S_, .i32⟩ : BufTy).Contents (Elt F) → (⟨S4096, .i32⟩ : BufTy).Contents (Elt F)),
    binary main_v20 main_v21 main_v22 (cmpi .slt : (⟨S4096, .i32⟩ : BufTy).Contents (Elt F) → (⟨S4096, .i32⟩ : BufTy).Contents (Elt F) → (⟨S4096, .i1⟩ : BufTy).Contents (Elt F)),
    nullary main_c_4 (constantI S_ 32 32#32),
    unary main_c_4 main_v23 (broadcastInDim S4096 ![] bcast_S_S4096 : (⟨S_, .i32⟩ : BufTy).Contents (Elt F) → (⟨S4096, .i32⟩ : BufTy).Contents (Elt F)),
    binary main_v20 main_v23 main_v24 (addi : (⟨S4096, .i32⟩ : BufTy).Contents (Elt F) → (⟨S4096, .i32⟩ : BufTy).Contents (Elt F) → (⟨S4096, .i32⟩ : BufTy).Contents (Elt F)),
    ternary main_v22 main_v24 main_v20 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v25 main_v26 (broadcastInDim S4096x1 ![0] bcast_S4096_S4096x1_0 : (⟨S4096, .i32⟩ : BufTy).Contents (Elt F) → (⟨S4096x1, .i32⟩ : BufTy).Contents (Elt F)),
    binary main_arg3 main_v26 main_v27 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    nullary main_c_5 (constantI S_ 32 0#32),
    unary main_c_5 main_v28 (broadcastInDim S4096 ![] bcast_S_S4096 : (⟨S_, .i32⟩ : BufTy).Contents (Elt F) → (⟨S4096, .i32⟩ : BufTy).Contents (Elt F)),
    binary main_v20 main_v28 main_v29 (cmpi .slt : (⟨S4096, .i32⟩ : BufTy).Contents (Elt F) → (⟨S4096, .i32⟩ : BufTy).Contents (Elt F) → (⟨S4096, .i1⟩ : BufTy).Contents (Elt F)),
    nullary main_c_6 (constantI S_ 32 32#32),
    unary main_c_6 main_v30 (broadcastInDim S4096 ![] bcast_S_S4096 : (⟨S_, .i32⟩ : BufTy).Contents (Elt F) → (⟨S4096, .i32⟩ : BufTy).Contents (Elt F)),
    binary main_v20 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_v20 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v32 main_v33 (broadcastInDim S4096x1 ![0] bcast_S4096_S4096x1_0 : (⟨S4096, .i32⟩ : BufTy).Contents (Elt F) → (⟨S4096x1, .i32⟩ : BufTy).Contents (Elt F)),
    binary main_v18 main_v33 main_v34 ((fun x i => Host.gather gather_S32x11008_S4096x1_S4096x11008_1_0_n_n_0_1_111008 x i) : (⟨S32x11008, .i32⟩ : BufTy).Contents (Elt F) → (⟨S4096x1, .i32⟩ : BufTy).Contents (Elt F) → (⟨S4096x11008, .i32⟩ : BufTy).Contents (Elt F)),
    nullary main_c_7 (constantI S_ 32 1#32),
    unary main_c_7 main_v35 (broadcastInDim S4096x11008 ![] bcast_S_S4096x11008 : (⟨S_, .i32⟩ : BufTy).Contents (Elt F) → (⟨S4096x11008, .i32⟩ : BufTy).Contents (Elt F)),
    binary main_v34 main_v35 main_v36 (addi : (⟨S4096x11008, .i32⟩ : BufTy).Contents (Elt F) → (⟨S4096x11008, .i32⟩ : BufTy).Contents (Elt F) → (⟨S4096x11008, .i32⟩ : BufTy).Contents (Elt F)),
    binary main_v10 main_v36 main_v37 (subi : (⟨S4096x11008, .i32⟩ : BufTy).Contents (Elt F) → (⟨S4096x11008, .i32⟩ : BufTy).Contents (Elt F) → (⟨S4096x11008, .i32⟩ : BufTy).Contents (Elt F)),
    unary main_v37 main_v38 (sitofp .f32 : (⟨S4096x11008, .i32⟩ : BufTy).Contents (Elt F) → (⟨S4096x11008, .f32⟩ : BufTy).Contents (Elt F)),
    binary main_v27 main_v38 main_v39 (mulf : (⟨S4096x11008, .f32⟩ : BufTy).Contents (Elt F) → (⟨S4096x11008, .f32⟩ : BufTy).Contents (Elt F) → (⟨S4096x11008, .f32⟩ : BufTy).Contents (Elt F)),
    binary main_arg0 main_v39 main_v40 ((fun l r => Host.dotGeneral dot_S16x4096_S4096x11008_S16x11008_1_0_0_1_n_n none l r) : (⟨S16x4096, .f32⟩ : BufTy).Contents (Elt F) → (⟨S4096x11008, .f32⟩ : BufTy).Contents (Elt F) → (⟨S16x11008, .f32⟩ : BufTy).Contents (Elt F)),
    unary main_arg4 main_v41 (broadcastInDim S1x11008 ![1] bcast_S11008_S1x11008_1 : (⟨S11008, .f32⟩ : BufTy).Contents (Elt F) → (⟨S1x11008, .f32⟩ : BufTy).Contents (Elt F)),
    unary main_v41 main_v42 (broadcastInDim S16x11008 ![0, 1] bcast_S1x11008_S16x11008_0_1 : (⟨S1x11008, .f32⟩ : BufTy).Contents (Elt F) → (⟨S16x11008, .f32⟩ : BufTy).Contents (Elt F)),
    binary main_v40 main_v42 main_v43 (addf : (⟨S16x11008, .f32⟩ : BufTy).Contents (Elt F) → (⟨S16x11008, .f32⟩ : BufTy).Contents (Elt F) → (⟨S16x11008, .f32⟩ : BufTy).Contents (Elt F)) ]

-- sixty-nine steps on either side: the comparison walks the whole chain
set_option maxRecDepth 8192 in
set_option maxHeartbeats 2000000 in
/-- @main is that straight line: with `floor_divide`'s and `_where`'s bodies unfolded at the call and sequencing
    computed (a step followed by a line is the line with the step in front), both sides are the same chain of
    `hlo` steps ending in the return. -/
theorem main_eq (c : Dev nD) : main (F := F) c = seq ops := rfl

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: one fact per operation, in order, by its arity. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., unary_bufs_sub .., unary_bufs_sub .., unary_bufs_sub .., unary_bufs_sub .., binary_bufs_sub ..,
    nullary_bufs_sub .., unary_bufs_sub .., binary_bufs_sub .., reshape_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., binary_bufs_sub .., unary_bufs_sub .., binary_bufs_sub .., binary_bufs_sub ..,
    unary_bufs_sub .., unary_bufs_sub .., binary_bufs_sub ..⟩

-- the gathers stay folded: the equation never looks inside one
attribute [local irreducible] Host.gather in
set_option maxRecDepth 8192 in
set_option maxHeartbeats 1000000 in
/-- The fold at the result buffer is `refTerm` of the contents at the five argument buffers: each operation's result
    at its own buffer is its function at its operands' contents, at any other buffer what was there; what is left
    is `refTerm` unfolded, the typed references' transports being the identity at these literal references and the
    callee's copy of 128 the identity function. -/
theorem out_eq (V : Valuation τ sig (Elt F)) :
    after ops V (main_v43 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument's buffer: the fold there is what was there. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  -- every buffer ends at the fold of the operations over the launch contents; read it at the six buffers
  have hfold := run_seq scopedRefs_eq scopedSems_eq defs main (fun _ => ops) main_eq (fun _ => ops_sub) m ρ
  exact (θ_run defs _ _).mono (fun _ h c => ⟨(h c main_v43).trans (out_eq _), (h c main_arg0).trans (arg0_eq _),
    (h c main_arg1).trans (arg1_eq _), (h c main_arg2).trans (arg2_eq _), (h c main_arg3).trans (arg3_eq _),
    (h c main_arg4).trans (arg4_eq _)⟩) hfold

end Cert.ReferenceIdeal.Hand

end
-- ==== Proof.RefInt.lean ====
/-
  THE REFERENCE'S INTEGER STAGES READ AT AN INDEX (RefTerm.lean): the unpacked weight and zero-point codes are the
  specification's nibbles, and the gathers' start index of row `k` is its group `k / 128`.
-/
import proofs.«411852_j24781961298171_3_alg».proof.Proof.RefTerm
import proofs.«411852_j24781961298171_3_alg».proof.Proof.Spec
import Idealize.ShloMosaic.Lib.ValueIdx
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.TcCoe Idealize.ShloMosaic.ValueIdx

/-! ## Words: a small natural as a 32-bit word

Every number met below is under 4096, far under 2³¹: as a 32-bit word it reads back as itself and its sign bit is
clear, so signed division, remainder and comparison on it are the naturals'. -/

/-- A natural under 4096 written as a 32-bit word reads back unchanged. -/
private theorem toNat_ofNat_small (k : ℕ) (hk : k < 4096) : (BitVec.ofNat 32 k).toNat = k := by
  rw [BitVec.toNat_ofNat]; omega

/-- Its sign bit is clear: twice the number is still under 2³². -/
private theorem msb_ofNat_small (k : ℕ) (hk : k < 4096) : (BitVec.ofNat 32 k).msb = false := by
  rw [BitVec.msb_eq_false_iff_two_mul_lt, toNat_ofNat_small k hk]; omega

/-- The arithmetic shift right by the amount `j · 4` (as words), `j < 8`: the amount reads `4 j < 32`, below the
    width, so the shift is the plain one by `4 j` bits. -/
private theorem shrsi_nibble (x : BitVec 32) (j : ℕ) (hj : j < 8) :
    IntOp.shrsi .host x (BitVec.ofNat 32 j * 4#32) = x.sshiftRight (4 * j) := by
  have h : (BitVec.ofNat 32 j * 4#32).toNat = 4 * j := by
    rw [BitVec.toNat_mul, BitVec.toNat_ofNat]
    show j % 2 ^ 32 * 4 % 2 ^ 32 = 4 * j
    omega
  unfold IntOp.shrsi
  rw [if_pos (by omega), BitVec.sshiftRight_eq', h]

/-- The signed quotient of `k < 4096` by 128: the divisor is neither 0 nor −1 (no corner), both sign bits are clear,
    so the signed quotient is the unsigned one, `k / 128`. -/
private theorem divsi_128 (k : ℕ) (hk : k < 4096) :
    IntOp.divsi .host (BitVec.ofNat 32 k) 128#32 = BitVec.ofNat 32 (k / 128) := by
  unfold IntOp.divsi
  rw [if_neg (by rintro (h | ⟨_, h⟩) <;> exact absurd h (by decide)), BitVec.sdiv_eq, msb_ofNat_small k hk]
  show BitVec.udiv (BitVec.ofNat 32 k) 128#32 = _
  apply BitVec.eq_of_toNat_eq
  show ((BitVec.ofNat 32 k) / 128#32).toNat = _
  rw [BitVec.toNat_udiv, toNat_ofNat_small k hk, toNat_ofNat_small (k / 128) (by omega)]
  rfl

/-- The signed remainder of `k < 4096` by 128, likewise the unsigned one, `k % 128`. -/
private theorem remsi_128 (k : ℕ) (hk : k < 4096) :
    IntOp.remsi .host (BitVec.ofNat 32 k) 128#32 = BitVec.ofNat 32 (k % 128) := by
  unfold IntOp.remsi
  rw [if_neg (by rintro (h | ⟨_, h⟩) <;> exact absurd h (by decide)), BitVec.srem_eq, msb_ofNat_small k hk]
  show (BitVec.ofNat 32 k) % 128#32 = _
  apply BitVec.eq_of_toNat_eq
  rw [BitVec.toNat_umod, toNat_ofNat_small k hk, toNat_ofNat_small (k % 128) (by omega)]
  rfl

/-- The sign word of a 32-bit word: 0 at zero, −1 below zero, 1 above. -/
private def sgnw (x : BitVec 32) : BitVec 32 := if x = 0 then 0 else if x.msb then -1 else 1

/-- A nonzero `k < 4096` has sign 1. -/
private theorem sgnw_small (k : ℕ) (hk : k < 4096) (h0 : k ≠ 0) : sgnw (BitVec.ofNat 32 k) = 1#32 := by
  unfold sgnw
  rw [if_neg, msb_ofNat_small k hk]
  · rfl
  · intro h
    have := congrArg BitVec.toNat h
    rw [toNat_ofNat_small k hk] at this
    exact h0 this

/-- The floor correction never fires on a row number: "the signs of `k` and 128 differ AND the remainder is not zero"
    is the bit 0. For `k ≠ 0` both signs are 1, so the first conjunct is 0; for `k = 0` the signs do differ (0 against
    1) but the remainder is 0, so the second conjunct is 0. -/
private theorem floor_cond (k : ℕ) (hk : k < 4096) :
    IntOp.andi (IntOp.cmpi .ne (sgnw (BitVec.ofNat 32 k)) (sgnw 128#32))
      (IntOp.cmpi .ne (BitVec.ofNat 32 (k % 128)) 0#32) = 0#1 := by
  by_cases h0 : k = 0
  · subst h0; decide
  · rw [sgnw_small k hk h0]
    have h1 : sgnw 128#32 = 1#32 := by decide
    have h2 : IntOp.cmpi .ne 1#32 1#32 = 0#1 := by decide
    rw [h1, h2]
    unfold IntOp.andi
    exact BitVec.zero_and

/-- A natural under 4096 is not below zero as a signed word: its signed reading is the natural itself. -/
private theorem slt_zero_small (m : ℕ) (hm : m < 4096) : IntOp.cmpi .slt (BitVec.ofNat 32 m) 0#32 = 0#1 := by
  have h : (BitVec.ofNat 32 m).slt 0#32 = false := by
    rw [BitVec.slt_eq_decide, BitVec.toInt_eq_toNat_of_msb (msb_ofNat_small m hm), toNat_ofNat_small m hm]
    have h0 : (0#32).toInt = 0 := by decide
    rw [h0]
    exact decide_eq_false (by omega)
  show BitVec.ofBool ((BitVec.ofNat 32 m).slt 0#32) = 0#1
  rw [h]; rfl

/-! ## The vector operations read at an index -/

/-- A bitwise and at an index is the and of the elements. -/
private theorem andi_apply {s : Shape} {w : ℕ} (x y : IVec s w) (i : s.Idx) : andi x y i = x i &&& y i := rfl
/-- The host's arithmetic shift right at an index shifts the element by the amount's element. -/
private theorem hostShrsi_apply {s : Shape} {w : ℕ} (x y : IVec s w) (i : s.Idx) :
    Host.shrsi x y i = IntOp.shrsi .host (x i) (y i) := rfl

/-- Shift amount number `j` is the word `j` times the word 4. -/
private theorem shifts_apply (j : Fin 8) : shifts (ix1 j) = BitVec.ofNat 32 j.val * 4#32 := rfl

/-! ## The weight codes -/

/-- The packed weights spread over the new middle axis read, at `(a, b, n)`, the word at `(a, n)`: through
    `[512, 1, 11008]` at `(a, 0, n)`. -/
private theorem bcastW_apply (a1 : IVec S512x11008 32) (a : Fin 512) (b : Fin 8) (n : Fin 11008) :
    broadcastInDim S512x8x11008 ![0, 1, 2] bcast_S512x1x11008_S512x8x11008_0_1_2
      (broadcastInDim S512x1x11008 ![0, 2] bcast_S512x11008_S512x1x11008_0_2 a1) (ix3 a b n) = a1 (ix2 a n) := by
  refine (broadcastInDim_apply _ _ _ (ix3 a b n) (ix3 a (0 : Fin 1) n) ?_).trans ?_
  · intro c; match c with | ⟨0, _⟩ => rfl | ⟨1, _⟩ => rfl | ⟨2, _⟩ => rfl
  · refine broadcastInDim_apply _ _ _ (ix3 a (0 : Fin 1) n) (ix2 a n) ?_
    intro c; match c with | ⟨0, _⟩ => rfl | ⟨1, _⟩ => rfl

/-- The shift amounts spread over `[512, 8, 11008]` read, at `(a, b, n)`, amount number `b`: through `[1, 8, 1]` at
    `(0, b, 0)`. -/
private theorem bcastShW_apply (a : Fin 512) (b : Fin 8) (n : Fin 11008) :
    broadcastInDim S512x8x11008 ![0, 1, 2] bcast_S1x8x1_S512x8x11008_0_1_2
      (broadcastInDim S1x8x1 ![1] bcast_S8_S1x8x1_1 shifts) (ix3 a b n) = shifts (ix1 b) := by
  refine (broadcastInDim_apply _ _ _ (ix3 a b n) (ix3 (0 : Fin 1) b (0 : Fin 1)) ?_).trans ?_
  · intro c; match c with | ⟨0, _⟩ => rfl | ⟨1, _⟩ => rfl | ⟨2, _⟩ => rfl
  · refine broadcastInDim_apply _ _ _ (ix3 (0 : Fin 1) b (0 : Fin 1)) (ix1 b) ?_
    intro c; match c with | ⟨0, _⟩ => rfl

/-- Merging the first two axes of `[512, 8, 11008]` row-major sends `(k, n)` to `(k / 8, k % 8, n)`, since
    `(k / 8) · 8 + k % 8 = k`; there the word at `(k / 8, n)` is shifted right by `4 (k % 8)` bits and masked with 15:
    the specification's nibble `k % 8` of word row `k / 8`. -/
theorem wcodes_apply (a1 : IVec S512x11008 32) (k : Fin 4096) (n : Fin 11008) :
    wcodes a1 (ix2 k n) = Cert.Gptq.wcode a1 k n := by
  have hk := k.isLt
  unfold wcodes
  refine (shapeCast_apply _ _ (ix2 k n)
    (ix3 (⟨k.val / 8, by omega⟩ : Fin 512) (⟨k.val % 8, by omega⟩ : Fin 8) n) ?_).trans ?_
  · rw [Shape.rowMajor_val_three, Shape.rowMajor_val_two]
    show (k.val / 8 * 8 + k.val % 8) * 11008 + n.val = k.val * 11008 + n.val
    omega
  · rw [andi_apply, hostShrsi_apply, bcastW_apply, bcastShW_apply, shifts_apply,
      shrsi_nibble _ _ (by show k.val % 8 < 8; omega)]
    rfl

/-! ## The zero-point codes -/

/-- The packed zero points spread over the new last axis read, at `(G, c, j)`, the word at `(G, c)`: through
    `[32, 1376, 1]` at `(G, c, 0)`. -/
private theorem bcastZ_apply (a2 : IVec S32x1376 32) (G : Fin 32) (c : Fin 1376) (j : Fin 8) :
    broadcastInDim S32x1376x8 ![0, 1, 2] bcast_S32x1376x1_S32x1376x8_0_1_2
      (broadcastInDim S32x1376x1 ![0, 1] bcast_S32x1376_S32x1376x1_0_1 a2) (ix3 G c j) = a2 (ix2 G c) := by
  refine (broadcastInDim_apply _ _ _ (ix3 G c j) (ix3 G c (0 : Fin 1)) ?_).trans ?_
  · intro d; match d with | ⟨0, _⟩ => rfl | ⟨1, _⟩ => rfl | ⟨2, _⟩ => rfl
  · refine broadcastInDim_apply _ _ _ (ix3 G c (0 : Fin 1)) (ix2 G c) ?_
    intro d; match d with | ⟨0, _⟩ => rfl | ⟨1, _⟩ => rfl

/-- The shift amounts spread over `[32, 1376, 8]` read, at `(G, c, j)`, amount number `j`: through `[1, 1, 8]` at
    `(0, 0, j)`. -/
private theorem bcastShZ_apply (G : Fin 32) (c : Fin 1376) (j : Fin 8) :
    broadcastInDim S32x1376x8 ![0, 1, 2] bcast_S1x1x8_S32x1376x8_0_1_2
      (broadcastInDim S1x1x8 ![2] bcast_S8_S1x1x8_2 shifts) (ix3 G c j) = shifts (ix1 j) := by
  refine (broadcastInDim_apply _ _ _ (ix3 G c j) (ix3 (0 : Fin 1) (0 : Fin 1) j) ?_).trans ?_
  · intro d; match d with | ⟨0, _⟩ => rfl | ⟨1, _⟩ => rfl | ⟨2, _⟩ => rfl
  · refine broadcastInDim_apply _ _ _ (ix3 (0 : Fin 1) (0 : Fin 1) j) (ix1 j) ?_
    intro d; match d with | ⟨0, _⟩ => rfl

/-- Merging the last two axes of `[32, 1376, 8]` row-major sends `(G, n)` to `(G, n / 8, n % 8)`, since
    `(G · 1376 + n / 8) · 8 + n % 8 = G · 11008 + n`; there the word at `(G, n / 8)` is shifted right by `4 (n % 8)` bits
    and masked with 15: the specification's nibble `n % 8` of word column `n / 8`. -/
theorem zcodes_apply (a2 : IVec S32x1376 32) (G : Fin 32) (n : Fin 11008) :
    zcodes a2 (ix2 G n) = Cert.Gptq.zcode a2 G n := by
  have hn := n.isLt
  unfold zcodes
  refine (shapeCast_apply _ _ (ix2 G n)
    (ix3 G (⟨n.val / 8, by omega⟩ : Fin 1376) (⟨n.val % 8, by omega⟩ : Fin 8)) ?_).trans ?_
  · rw [Shape.rowMajor_val_three, Shape.rowMajor_val_two]
    show (G.val * 1376 + n.val / 8) * 8 + n.val % 8 = G.val * 11008 + n.val
    omega
  · rw [andi_apply, hostShrsi_apply, bcastZ_apply, bcastShZ_apply, shifts_apply,
      shrsi_nibble _ _ (by show n.val % 8 < 8; omega)]
    rfl

/-! ## The gathers' start indices -/

/-- Row `k`'s floor quotient by 128 is `k / 128`: at row `k` the row number is the word `k`, its truncated quotient
    and remainder by 128 are `k / 128` and `k % 128`, and the correction's condition is the bit 0 (`floor_cond`), so
    the select keeps the plain quotient. -/
theorem groupOf_apply (k : Fin 4096) : groupOf (ix1 k) = BitVec.ofNat 32 (k.val / 128) := by
  have hk := k.isLt
  show Scalar.select
      (IntOp.andi (IntOp.cmpi .ne (sgnw (BitVec.ofNat 32 k.val)) (sgnw 128#32))
        (IntOp.cmpi .ne (IntOp.remsi .host (BitVec.ofNat 32 k.val) 128#32) 0#32))
      (IntOp.subi (IntOp.divsi .host (BitVec.ofNat 32 k.val) 128#32) 1#32)
      (IntOp.divsi .host (BitVec.ofNat 32 k.val) 128#32) = _
  rw [remsi_128 k.val hk, floor_cond k.val hk, select_zero, divsi_128 k.val hk]

/-- The column of start indices reads, at `(k, 0)`, the group number of row `k`: the group `k / 128 < 32` is not below
    zero, so 32 is not added. -/
theorem rowsOf_apply (k : Fin 4096) :
    rowsOf (ix2 k (0 : Fin 1)) = BitVec.ofNat 32 (k.val / 128) := by
  have hk := k.isLt
  unfold rowsOf
  refine (broadcastInDim_apply _ _ _ (ix2 k (0 : Fin 1)) (ix1 k) ?_).trans ?_
  · intro c; match c with | ⟨0, _⟩ => rfl
  · rw [select_apply]
    show Scalar.select (IntOp.cmpi .slt (groupOf (ix1 k)) 0#32)
      (IntOp.addi (groupOf (ix1 k)) 32#32) (groupOf (ix1 k)) = _
    rw [groupOf_apply, slt_zero_small _ (by omega), select_zero]

end Cert.ReferenceIdeal.Hand

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.RefRead.lean ====
/-
  THE REFERENCE'S RESULT READ AT AN INDEX: entry `(p, n)` of `refTerm` (RefTerm.lean) at the ideal instance is the
  specification's dequantise-then-multiply form (Spec.lean).

  * The two row gathers read row `k / 128` of their table: the start index of row `k` is the word `k / 128`, which
    read as a signed integer is the natural number `k / 128 < 32`, so the clamp to the last row leaves it alone.
  * The dequantised weight at `(k, n)` is the group's scale times the real reading of the code difference, the
    difference and the added one taken in the 32-bit words.
  * The contraction over the one shared axis of 4096 rows is the plain sum of products; the bias, laid as one row and
    then down the 16 result rows, reads `b n` everywhere.
-/
import proofs.«411852_j24781961298171_3_alg».proof.Proof.RefInt
import proofs.«411852_j24781961298171_3_alg».proof.Proof.LibRowGather
import Idealize.ShloMosaic.PureOps.Ideal.Laws
import Idealize.ShloMosaic.Lib.KernelVsHost

noncomputable section

namespace Cert.ReferenceIdeal.Hand

open Cert.ReferenceIdeal Cert.ReferenceIdeal.Gen Idealize.ShloMosaic Idealize.ShloMosaic.TcCoe Idealize.ShloMosaic.ValueIdx

/-! ## The row gathers -/

/-- The start index of row `k`, read signed and clamped to the table's 32 rows, is the row's group `k / 128`:
    the word `k / 128` is below `2 ^ 31`, so its signed reading is the natural number itself, and it is below 32,
    so the clamp to row 31 does nothing. -/
theorem row_of (k : Fin 4096) :
    (⟨min (rowsOf (ix2 k (0 : Fin 1))).toInt.toNat (32 - 1), by omega⟩ : Fin 32) = Cert.Gptq.grp k := by
  refine Fin.ext ?_
  show min (rowsOf (ix2 k (0 : Fin 1))).toInt.toNat (32 - 1) = k.val / 128
  rw [rowsOf_apply]
  have hk := k.isLt
  have h1 : k.val / 128 < 32 := by omega
  have h2 : (BitVec.ofNat 32 (k.val / 128)).toInt = ((k.val / 128 : ℕ) : ℤ) := by
    rw [BitVec.toInt_eq_toNat_cond, BitVec.toNat_ofNat, Nat.mod_eq_of_lt (by omega)]
    rw [if_pos (by omega)]
  rw [h2, Int.toNat_natCast]
  omega

/-- Either row gather (of the scales, of the zero-point codes) read at `(k, n)` is its table at `(k / 128, n)`. -/
theorem gather_apply {α : Type} (x : S32x11008.Idx → α) (k : Fin 4096) (n : Fin 11008) :
    Host.gather gather_S32x11008_S4096x1_S4096x11008_1_0_n_n_0_1_111008 x rowsOf (ix2 k n)
      = x (ix2 (Cert.Gptq.grp k) n) := by
  -- the program's dimension numbers are the row gather's, field by field
  have h := RowGather.rowGather_apply (N := 32) (C := 11008) (n := 4096) (by norm_num)
    gather_S32x11008_S4096x1_S4096x11008_1_0_n_n_0_1_111008_wf x rowsOf k n
  rw [row_of] at h
  exact h

/-! ## The dequantised weights -/

theorem deq_apply (a1 : IVec S512x11008 32) (a2 : IVec S32x1376 32) (a3 : FVec Ideal S32x11008 .f32)
    (k : Fin 4096) (n : Fin 11008) :
    deq (F := Ideal) a1 a2 a3 (ix2 k n)
      = a3 (ix2 (Cert.Gptq.grp k) n)
          * (((Cert.Gptq.wcode a1 k n - (Cert.Gptq.zcode a2 (Cert.Gptq.grp k) n + 1#32)).toInt : ℝ) : EReal) := by
  unfold deq
  -- the product and the integer-to-real reading are pointwise; the scale is gathered from row k / 128
  rw [mulf_apply, sitofp_apply, gather_apply]
  -- at the ideal values the reading of a word is its signed integer as a real; the word difference, the word sum and
  -- the spread constant one are pointwise
  show _ * (((wcodes a1 (ix2 k n)
      - (Host.gather gather_S32x11008_S4096x1_S4096x11008_1_0_n_n_0_1_111008 (zcodes a2) rowsOf (ix2 k n) + 1#32)).toInt
        : ℝ) : EReal) = _
  rw [gather_apply, wcodes_apply, zcodes_apply]

/-! ## The contraction

  At result index `i` and contraction index `q` the left operand is read at `(i 0, q)` and the right at `(q, i 1)`:
  one statement per operand axis, each at the literal axis. -/

/-- Left operand, axis 0: a free axis, the result's row. -/
theorem lhs_dot_0 (i : S16x11008.Idx) (q : dot_S16x4096_S4096x11008_S16x11008_1_0_0_1_n_n.contr.Idx) :
    (dot_S16x4096_S4096x11008_S16x11008_1_0_0_1_n_n.lhsIdx i q 0).val = (i 0).val := by
  unfold DotDims.lhsIdx
  rw [dif_neg (show ¬(0 : Fin S16x4096.rank) ∈ dot_S16x4096_S4096x11008_S16x11008_1_0_0_1_n_n.lhsBatch by decide),
    dif_pos (show (0 : Fin S16x4096.rank) ∈ dot_S16x4096_S4096x11008_S16x11008_1_0_0_1_n_n.lhsNonContracting by decide)]
  rfl

/-- Left operand, axis 1: the contracted axis. -/
theorem lhs_dot_1 (i : S16x11008.Idx) (q : dot_S16x4096_S4096x11008_S16x11008_1_0_0_1_n_n.contr.Idx) :
    (dot_S16x4096_S4096x11008_S16x11008_1_0_0_1_n_n.lhsIdx i q 1).val = (q ⟨0, by decide⟩).val :=
  dot_S16x4096_S4096x11008_S16x11008_1_0_0_1_n_n.lhsIdx_val_of_single rfl i q

/-- Right operand, axis 0: the contracted axis. -/
theorem rhs_dot_0 (i : S16x11008.Idx) (q : dot_S16x4096_S4096x11008_S16x11008_1_0_0_1_n_n.contr.Idx) :
    (dot_S16x4096_S4096x11008_S16x11008_1_0_0_1_n_n.rhsIdx i q 0).val = (q ⟨0, by decide⟩).val :=
  dot_S16x4096_S4096x11008_S16x11008_1_0_0_1_n_n.rhsIdx_val_of_single rfl i q

/-- Right operand, axis 1: a free axis, the result's column. -/
theorem rhs_dot_1 (i : S16x11008.Idx) (q : dot_S16x4096_S4096x11008_S16x11008_1_0_0_1_n_n.contr.Idx) :
    (dot_S16x4096_S4096x11008_S16x11008_1_0_0_1_n_n.rhsIdx i q 1).val = (i 1).val := by
  unfold DotDims.rhsIdx
  rw [dif_neg (show ¬(1 : Fin S4096x11008.rank) ∈ dot_S16x4096_S4096x11008_S16x11008_1_0_0_1_n_n.rhsBatch by decide),
    dif_pos (show (1 : Fin S4096x11008.rank) ∈ dot_S16x4096_S4096x11008_S16x11008_1_0_0_1_n_n.rhsNonContracting by decide)]
  rfl

/-- The contraction read at `(p, n)`: the sum over the 4096 shared rows of `x (p, k) · y (k, n)`. At the ideal values a
    contraction with no accumulator is the plain sum over its contraction index, and a one-axis contraction index is
    its one coordinate. -/
theorem dot_apply (x : FVec Ideal S16x4096 .f32) (y : FVec Ideal S4096x11008 .f32) (p : Fin 16) (n : Fin 11008) :
    Host.dotGeneral (F := Ideal) dot_S16x4096_S4096x11008_S16x11008_1_0_0_1_n_n none x y (ix2 p n)
      = ∑ k : Fin 4096, x (ix2 p k) * y (ix2 k n) := by
  simp only [Host.dotGeneral]
  rw [Ideal.dotGeneral_apply,
    ← Equiv.sum_comp (ValueIdx.contrEquiv1 dot_S16x4096_S4096x11008_S16x11008_1_0_0_1_n_n 4096 rfl rfl).symm]
  refine Finset.sum_congr rfl fun k _ => ?_
  have hk := ValueIdx.contrEquiv1_symm_val dot_S16x4096_S4096x11008_S16x11008_1_0_0_1_n_n 4096 rfl rfl k
  have el : dot_S16x4096_S4096x11008_S16x11008_1_0_0_1_n_n.lhsIdx (ix2 p n)
      ((ValueIdx.contrEquiv1 dot_S16x4096_S4096x11008_S16x11008_1_0_0_1_n_n 4096 rfl rfl).symm k) = ix2 p k :=
    funext fun a => Fin.ext (by
      match a with
      | ⟨0, _⟩ => exact lhs_dot_0 _ _
      | ⟨1, _⟩ => exact (lhs_dot_1 _ _).trans hk)
  have er : dot_S16x4096_S4096x11008_S16x11008_1_0_0_1_n_n.rhsIdx (ix2 p n)
      ((ValueIdx.contrEquiv1 dot_S16x4096_S4096x11008_S16x11008_1_0_0_1_n_n 4096 rfl rfl).symm k) = ix2 k n :=
    funext fun a => Fin.ext (by
      match a with
      | ⟨0, _⟩ => exact (rhs_dot_0 _ _).trans hk
      | ⟨1, _⟩ => exact rhs_dot_1 _ _)
  rw [el, er]

/-! ## The bias and the result -/

/-- The bias laid as one row, read at `(0, n)`, is the bias at `n`: the operand's one axis (of extent 11008, not one)
    is the row's axis 1. -/
theorem biasRow_apply {α : Type} (b : S11008.Idx → α) (n : Fin 11008) :
    broadcastInDim S1x11008 ![1] bcast_S11008_S1x11008_1 b (ix2 (0 : Fin 1) n) = b (ix1 n) := by
  refine broadcastInDim_apply ![1] bcast_S11008_S1x11008_1 b (ix2 (0 : Fin 1) n) (ix1 n) ?_
  intro a
  match a with
  | ⟨0, _⟩ =>
    show n.val = if (11008 : ℕ) = 1 then 0 else n.val
    rw [if_neg (by norm_num)]

theorem refTerm_apply (a0 : FVec Ideal S16x4096 .f32) (a1 : IVec S512x11008 32) (a2 : IVec S32x1376 32)
    (a3 : FVec Ideal S32x11008 .f32) (a4 : FVec Ideal S11008 .f32) (p : Fin 16) (n : Fin 11008) :
    refTerm (F := Ideal) a0 a1 a2 a3 a4 (ix2 p n) = Cert.Gptq.refForm a0 a1 a2 a3 a4 p n := by
  unfold refTerm Cert.Gptq.refForm
  -- the sum is pointwise; the contraction is the sum over k; the one-row bias spread down the rows reads its row 0
  rw [addf_apply, dot_apply, broadcastInDim_oneRow_apply, biasRow_apply]
  congr 1
  exact Finset.sum_congr rfl fun k _ => by rw [deq_apply]

end Cert.ReferenceIdeal.Hand

end
-- ==== Proof.Algebra.lean ====
/-
  THE LAW that joins the two forms of the int4 group-quantised product (Spec.lean): for finite `x` and finite scales the
  group-wise form equals the dequantise-then-multiply form, entry by entry.
-/
import proofs.«411852_j24781961298171_3_alg».proof.Proof.Spec
import Mathlib.Data.EReal.Operations
import Mathlib.Algebra.BigOperators.Fin
import Mathlib.Algebra.BigOperators.Ring.Finset

noncomputable section

namespace Cert.Gptq

open Idealize.ShloMosaic Idealize.ShloMosaic.ValueIdx

/-! ## Integers: a code difference does not wrap -/

/-- A nibble is one of 0, …, 15: it is a bitwise AND with 15. -/
theorem nib_toNat_le (w : BitVec 32) (j : ℕ) : (nib w j).toNat ≤ 15 := by
  unfold nib
  rw [BitVec.toNat_and]
  exact Nat.and_le_right

/-- For codes `a, z` in 0, …, 15 the 32-bit difference `a − (z + 1)` read as a signed integer is the integer
    difference of the two signed readings: `a` reads as 0, …, 15 and `z + 1` as 1, …, 16, so nothing wraps. -/
theorem toInt_code_sub (a z : BitVec 32) (ha : a.toNat ≤ 15) (hz : z.toNat ≤ 15) :
    (a - (z + 1#32)).toInt = a.toInt - (z + 1#32).toInt := by
  have h1 : (z + 1#32).toNat = z.toNat + 1 := by
    rw [BitVec.toNat_add, BitVec.toNat_ofNat]
    omega
  have h2 : (a - (z + 1#32)).toNat = (2 ^ 32 - (z.toNat + 1) + a.toNat) % 2 ^ 32 := by
    rw [BitVec.toNat_sub, h1]
  rw [BitVec.toInt_eq_toNat_cond, BitVec.toInt_eq_toNat_cond, BitVec.toInt_eq_toNat_cond, h2, h1]
  split_ifs <;> omega

/-! ## Rows split into groups -/

/-- Row `128 G + r` lies in group `G`. -/
theorem grp_krow (G : Fin 32) (r : Fin 128) : grp (krow G r) = G := by
  have := r.isLt
  ext
  simp only [grp, krow]
  omega

/-- The 4096 rows are the 32 × 128 pairs (group, row within the group): `(G, r) ↦ 128 G + r`, with inverse
    `k ↦ (k / 128, k % 128)`. -/
def krowEquiv : Fin 32 × Fin 128 ≃ Fin 4096 where
  toFun Gr := krow Gr.1 Gr.2
  invFun k := (grp k, ⟨k.val % 128, Nat.mod_lt _ (by norm_num)⟩)
  left_inv := by
    rintro ⟨G, r⟩
    have := G.isLt
    have := r.isLt
    refine Prod.ext (Fin.ext ?_) (Fin.ext ?_)
    · simp only [grp, krow]; omega
    · simp only [krow]; omega
  right_inv := by
    intro k
    refine Fin.ext ?_
    simp only [grp, krow]
    omega

/-- A sum over the 4096 rows is the sum over the groups of the sums over each group's 128 rows. -/
theorem sum_rows_eq_sum_groups {M : Type*} [AddCommMonoid M] (f : Fin 4096 → M) :
    ∑ k : Fin 4096, f k = ∑ G : Fin 32, ∑ r : Fin 128, f (krow G r) := by
  rw [← krowEquiv.sum_comp, Fintype.sum_prod_type]
  rfl

/-! ## Reals: one group's identity -/

/-- The coercion of the reals into the extended reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One group, all factors real: `(∑ᵣ xᵣ wᵣ) s − (∑ᵣ xᵣ) (s z) = ∑ᵣ xᵣ (s (wᵣ − z))`, by distributivity in `ℝ`. -/
theorem group_identity_real (xr : Fin 128 → ℝ) (s : ℝ) (w : Fin 128 → ℤ) (z : ℤ) :
    (∑ r, (xr r : EReal) * ((w r : ℝ) : EReal)) * (s : EReal)
        - (∑ r, (xr r : EReal)) * ((s : EReal) * ((z : ℝ) : EReal))
      = ∑ r, (xr r : EReal) * ((s : EReal) * (((w r - z : ℤ) : ℝ) : EReal)) := by
  simp only [← EReal.coe_mul, ← coe_sum, ← EReal.coe_sub]
  congr 1
  rw [Finset.sum_mul, Finset.sum_mul, ← Finset.sum_sub_distrib]
  refine Finset.sum_congr rfl fun r _ => ?_
  push_cast
  ring

/-- The same for finite extended reals: each finite factor is the coercion of a real. (Distributivity fails on the
    extended reals at the infinities; finiteness is what lets the algebra be done in `ℝ`.) -/
theorem group_identity (xe : Fin 128 → EReal) (se : EReal) (hx : ∀ r, xe r ≠ ⊤ ∧ xe r ≠ ⊥) (hs : se ≠ ⊤ ∧ se ≠ ⊥)
    (w : Fin 128 → ℤ) (z : ℤ) :
    (∑ r, xe r * ((w r : ℝ) : EReal)) * se - (∑ r, xe r) * (se * ((z : ℝ) : EReal))
      = ∑ r, xe r * (se * (((w r - z : ℤ) : ℝ) : EReal)) := by
  lift se to ℝ using hs
  lift xe to Fin 128 → ℝ using hx
  exact group_identity_real xe se w z

/-! ## The law -/

theorem kerForm_eq_refForm (x : FVec Ideal SX .f32) (qw : IVec SQW 32) (qz : IVec SQZ 32) (sc : FVec Ideal SSC .f32)
    (b : FVec Ideal SB .f32) (hx : ∀ i, x i ≠ ⊤ ∧ x i ≠ ⊥) (hs : ∀ i, sc i ≠ ⊤ ∧ sc i ≠ ⊥)
    (p : Fin 16) (n : Fin 11008) :
    kerForm x qw qz sc b p n = refForm x qw qz sc b p n := by
  unfold kerForm refForm
  rw [accUpTo_all, sum_rows_eq_sum_groups]
  congr 1
  refine Finset.sum_congr rfl fun G _ => ?_
  unfold grpTerm
  rw [group_identity (fun r => x (ix2 p (krow G r))) (sc (ix2 G n)) (fun r => hx _) (hs _)
    (fun r => (wcode qw (krow G r) n).toInt) ((zcode qz G n + 1#32).toInt)]
  refine Finset.sum_congr rfl fun r _ => ?_
  rw [grp_krow, toInt_code_sub (wcode qw (krow G r) n) (zcode qz G n) (nib_toNat_le _ _) (nib_toNat_le _ _)]

end Cert.Gptq

end
-- ==== Proof.Finite.lean ====
/-
  FINITENESS FROM THE PRECONDITION: when `finite_inputs` evaluates to true, every entry of the three float inputs is a
  real number (neither infinity).
-/
import proofs.«411852_j24781961298171_3_alg».proof.Pre_finite_inputs
import proofs.«411852_j24781961298171_3_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Hand

open Cert.Pre_finite_inputs Cert.Pre_finite_inputs.Gen Idealize.ShloMosaic Idealize.ShloMosaic.ValueIdx

/-- The rank-0 shape has exactly one index. -/
instance subsingleton_idx0 : Subsingleton S_.Idx := ⟨fun a b => funext fun d => d.elim0⟩

/-- The f32 pattern 0x7F800000 denotes +∞. -/
theorem plusInf_f32 : Ideal.ofBits .f32 0x7F800000#32 = (⊤ : EReal) := by simp [Ideal.ofBits, Ideal.ieee]

/-- On the extended reals, |x| = max x (-x) strictly below +∞ says x is neither infinity. -/
theorem finite_of_abs_lt_top (x : EReal) (hx : Ideal.cmp .olt (max x (-x)) (⊤ : EReal) = 1#1) : x ≠ ⊤ ∧ x ≠ ⊥ := by
  have hlt : max x (-x) < ⊤ := by
    by_contra hn
    simp [Ideal.cmp, hn] at hx
  obtain ⟨h1, h2⟩ := max_lt_iff.1 hlt
  refine ⟨ne_of_lt h1, ?_⟩
  rintro rfl
  simp at h2

/-- One input: when the and-reduction over all of |a| < +∞ is 1, every entry of a is a real number. -/
theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf CmpFPredicate.olt (Host.absf a) (broadcastInDim s ![] hb (constant S_ FTy.f32 0x7F800000#32)))
        (constantI S_ 1 1#1) hr hu ix0 = 1#1) (i : s.Idx) : a i ≠ ⊤ ∧ a i ≠ ⊥ := by
  have hi := Host.reduce_andi_all _ _ hr hu ix0 e i
  apply finite_of_abs_lt_top
  rw [← plusInf_f32]
  exact hi

theorem finite_of_pre (a0 : FVec Ideal S16x4096 .f32) (a1 : IVec S512x11008 32) (a2 : IVec S32x1376 32)
    (a3 : FVec Ideal S32x11008 .f32) (a4 : FVec Ideal S11008 .f32)
    (h : Cert.Pre_finite_inputs.fn (F := Ideal) a0 a1 a2 a3 a4 = fun _ => 1#1) :
    (∀ i, a0 i ≠ ⊤ ∧ a0 i ≠ ⊥) ∧ (∀ i, a3 i ≠ ⊤ ∧ a3 i ≠ ⊥) ∧ (∀ i, a4 i ≠ ⊤ ∧ a4 i ≠ ⊥) := by
  have h0 := congrFun h ValueIdx.ix0
  dsimp only [Cert.Pre_finite_inputs.fn] at h0
  obtain ⟨h03, h4⟩ := IntOp.andi_eq_one.1 h0
  obtain ⟨h0', h3⟩ := IntOp.andi_eq_one.1 h03
  exact ⟨finite_of_all a0 _ _ _ h0', finite_of_all a3 _ _ _ h3, finite_of_all a4 _ _ _ h4⟩

end Cert.Pre_finite_inputs.Hand

end
-- ==== Proof.lean ====
/-
  THE CERTIFICATE of the int4 group-quantised product: a Pallas kernel against its jnp reference, over the extended reals.

  Both programs take activations `x : f32[16, 4096]`, packed 4-bit weights `qweight : i32[512, 11008]` (eight codes per
  word along the rows), packed 4-bit zero points `qzeros : i32[32, 1376]` (eight per word along the columns), scales
  `f32[32, 11008]` (one row per group of 128 weight rows) and a bias `f32[11008]`, and return `x · W + bias` with
  `W[k, n] = scales[k / 128, n] · (q[k, n] − (z[k / 128, n] + 1))`.

  The reference dequantises `W` whole and contracts.  The kernel never forms `W`: for each group `G` it multiplies the
  group's 128 columns of `x` by the bare codes, scales the [16, 5504] product by the group's scales and subtracts the
  group's row sum of `x` times `scales · (z + 1)` (computed on the host before the call), accumulating over the 32 groups
  in a scratch carried across the four row blocks of each of the two column blocks, and adds the bias at the last.
  The two agree because `∑ₖ x·(s·(q − z)) = (∑ₖ x·q)·s − (∑ₖ x)·(s·z)` group by group — a law of the reals that needs the
  activations and scales finite (it fails at infinities), which is what the precondition provides.

  * Spec.lean states both forms entry by entry; Algebra.lean proves the law; Finite.lean reads finiteness off the
    precondition.
  * RefTerm.lean, RefRun.lean, RefInt.lean, RefRead.lean: the reference's run ends at one composed term of the
    arguments, and that term at `(p, n)` is the dequantise-then-multiply form.
  * KerPayload.lean, KerStep.lean, KerVal.lean, KerHost.lean, KerBlocks.lean, KerInv.lean: one group's update at an entry;
    what each control case of the body leaves in the accumulator as a chain of eight updates; the input blocks and
    the host-computed arrays at an index; the induction over the eight grid points; the result array.
  The frames of the two kernel programs are the generated ones; the reference's frame is its run with the result dropped.
-/
import proofs.«411852_j24781961298171_3_alg».proof.Defs
import proofs.«411852_j24781961298171_3_alg».proof.Proof.Gen.Kernel
import proofs.«411852_j24781961298171_3_alg».proof.Proof.Gen.Kernel.Frame
import proofs.«411852_j24781961298171_3_alg».proof.Proof.Gen.KernelIdeal
import proofs.«411852_j24781961298171_3_alg».proof.Proof.Gen.KernelIdeal.Frame
import proofs.«411852_j24781961298171_3_alg».proof.Proof.Gen.ReferenceIdeal
import proofs.«411852_j24781961298171_3_alg».proof.Proof.Gen.Pre_finite_inputs
import proofs.«411852_j24781961298171_3_alg».proof.Proof.KerInv
import proofs.«411852_j24781961298171_3_alg».proof.Proof.RefRun
import proofs.«411852_j24781961298171_3_alg».proof.Proof.RefRead
import proofs.«411852_j24781961298171_3_alg».proof.Proof.Algebra
import proofs.«411852_j24781961298171_3_alg».proof.Proof.Finite

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result's value dropped. -/
theorem frame_ri : Cert.frame_ReferenceIdeal := fun m ρ _ =>
  (θ_run Cert.ReferenceIdeal.defs _ _).mono (fun _ h c => (h c).2) (Cert.ReferenceIdeal.Hand.run (F := Ideal) m ρ)

/-- The eight ledger entries: in each group the activations narrowed to bf16 and widened back are, at the ideal
    instance, the activations themselves. -/
theorem preserves : Cert.preserves_Kernel_KernelIdeal :=
  ⟨IdealRules.truncf_extf.statement Cert.KernelIdeal.S16x128 .f32 .bf16,
   IdealRules.truncf_extf.statement Cert.KernelIdeal.S16x128 .f32 .bf16,
   IdealRules.truncf_extf.statement Cert.KernelIdeal.S16x128 .f32 .bf16,
   IdealRules.truncf_extf.statement Cert.KernelIdeal.S16x128 .f32 .bf16,
   IdealRules.truncf_extf.statement Cert.KernelIdeal.S16x128 .f32 .bf16,
   IdealRules.truncf_extf.statement Cert.KernelIdeal.S16x128 .f32 .bf16,
   IdealRules.truncf_extf.statement Cert.KernelIdeal.S16x128 .f32 .bf16,
   IdealRules.truncf_extf.statement Cert.KernelIdeal.S16x128 .f32 .bf16⟩

/-- Both runs end, the kernel's at the group-wise form and the reference's at the dequantise-then-multiply form of the
    same arguments; under the precondition the activations and scales are finite, so the two forms agree entry by entry. -/
theorem algebraic : Cert.algebraic_KernelIdeal_ReferenceIdeal := by
  intro m ρ m' ρ' hpre hagree
  refine ⟨fun c => Cert.KernelIdeal.Hand.outG m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4⟩ := hagree c
  rw [e0, e1, e2, e3, e4]
  obtain ⟨hx, hs, _⟩ := Cert.Pre_finite_inputs.Hand.finite_of_pre _ _ _ _ _ (hpre c)
  funext i
  obtain ⟨p, n, rfl⟩ : ∃ (p : Fin 16) (n : Fin 11008), i = ix2 p n := ⟨i 0, i 1, eq_ix2 i⟩
  rw [Cert.ReferenceIdeal.Hand.refTerm_apply]
  exact (Cert.Gptq.kerForm_eq_refForm _ _ _ _ _ hx hs p n).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
